-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024 : Shape := ⟨3, ![32, 1, 1024]⟩
abbrev S32x2048x1024 : Shape := ⟨3, ![32, 2048, 1024]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S32x1x1024 : S_.BroadcastsInDim S32x1x1024 (![] : Fin 0 → Fin S32x1x1024.rank)
  reducesTo_S32x1x1024_S_d0_1_2 : S32x1x1024.ReducesTo [0, 1, 2] S_
  h_S_ : 0 < S_.numel
  bcast_S_S32x2048x1024 : S_.BroadcastsInDim S32x2048x1024 (![] : Fin 0 → Fin S32x2048x1024.rank)
  reducesTo_S32x2048x1024_S_d0_1_2 : S32x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1x1024 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S32x1x1024 .f32) (main_arg1 : FVec F S32x2048x1024 .f32) (main_arg2 : FVec F S1024x1024 .f32) (main_arg3 : FVec F S1024 .f32) (main_arg4 : FVec F S1024x1024 .f32) (main_arg5 : FVec F S1024 .f32) (main_arg6 : FVec F S1x1024 .f32) (main_arg7 : FVec F S1 .f32) : IVec S_ 1 :=
  let main_v0 : FVec F S32x1x1024 .f32 := Host.absf main_arg0
  let main_cst : FVec F S_ .f32 := constant S_ .f32 0x7F800000#32
  let main_v1 : FVec F S32x1x1024 .f32 := broadcastInDim S32x1x1024 ![] bcast_S_S32x1x1024 main_cst
  let main_v2 : IVec S32x1x1024 1 := cmpf .olt main_v0 main_v1
  let main_c : IVec S_ 1 := constantI S_ 1 1#1
  let main_v3 : IVec S_ 1 := (fun x v => Host.reduce IntOp.andi x v reducesTo_S32x1x1024_S_d0_1_2 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S32x1x1024 : Shape := ⟨3, ![32, 1, 1024]⟩
abbrev S32x2048x1024 : Shape := ⟨3, ![32, 2048, 1024]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S32x1024 : Shape := ⟨2, ![32, 1024]⟩
abbrev S32x1x2048 : Shape := ⟨3, ![32, 1, 2048]⟩
abbrev S1x1x1024 : Shape := ⟨3, ![1, 1, 1024]⟩
abbrev S1x2048x1024 : Shape := ⟨3, ![1, 2048, 1024]⟩
abbrev S1x1x2048 : Shape := ⟨3, ![1, 1, 2048]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1x2048 : Shape := ⟨2, ![1, 2048]⟩

abbrev nBuf : Space → Nat
  | .hbm => 21
  | .vmem => 12
  | .smem => 0
  | _ => 0

abbrev bufTy : (tb : Table) → Fin (tcTables nBuf tb) → BufTy
  | .hbm, ⟨0, _⟩ => ⟨S32x1x1024, .f32⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1x1, .f32⟩
  | .hbm, ⟨12, _⟩ => ⟨S32x1024, .f32⟩
  | .hbm, ⟨13, _⟩ => ⟨S1024x1024, .f32⟩
  | .hbm, ⟨14, _⟩ => ⟨S32x1024, .f32⟩
  | .hbm, ⟨15, _⟩ => ⟨S1x1024, .f32⟩
  | .hbm, ⟨16, _⟩ => ⟨S32x1024, .f32⟩
  | .hbm, ⟨17, _⟩ => ⟨S32x1024, .f32⟩
  | .hbm, ⟨18, _⟩ => ⟨S32x1x1024, .f32⟩
  | .hbm, ⟨19, _⟩ => ⟨S32x1x1024, .f32⟩
  | .hbm, ⟨20, _⟩ => ⟨S32x1x2048, .f32⟩
  | .local _ .vmem, ⟨0, _⟩ => ⟨S1x1x1024, .f32⟩
  | .local _ .vmem, ⟨1, _⟩ => ⟨S1x1x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1, .f32⟩
  | .local _ .vmem, ⟨8, _⟩ => ⟨S1x1x1024, .f32⟩
  | .local _ .vmem, ⟨9, _⟩ => ⟨S1x1x1024, .f32⟩
  | .local _ .vmem, ⟨10, _⟩ => ⟨S1x1x2048, .f32⟩
  | .local _ .vmem, ⟨11, _⟩ => ⟨S1x1x2048, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S1_S1x1 : S1.ShapeCasts S1x1
  shapeCasts_S32x1x1024_S32x1024 : S32x1x1024.ShapeCasts S32x1024
  bcast_S1x1024_S32x1024_0_1 : S1x1024.BroadcastsInDim S32x1024 (![0, 1] : Fin 2 → Fin S32x1024.rank)
  shapeCasts_S32x1024_S32x1x1024 : S32x1024.ShapeCasts S32x1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x2048x1024_S1x512x1024_0_0_0 : ∀ a, (![0, 0, 0] : Fin 3 → Nat) a + S1x512x1024.size a ≤ S1x2048x1024.size a
  h_S1x512x1024 : 0 < S1x512x1024.numel
  shapeCasts_S1x512x1024_S512x1024 : S1x512x1024.ShapeCasts S512x1024
  broadcasts_S1x1024_S512x1024 : S1x1024.Broadcasts S512x1024
  reduces_S512x1024_S512 : S512x1024.Reduces [1] S512
  shapeCasts_S512_S512x1 : S512.ShapeCasts S512x1
  broadcasts_S1x1_S512x1 : S1x1.Broadcasts S512x1
  transposes_S512x1_p1_0_S1x512 : S512x1.Transposes [1, 0] S1x512
  reduces_S1x512_S1 : S1x512.Reduces [1] S1
  broadcasts_S1x1_S1x512 : S1x1.Broadcasts S1x512
  transposes_S1x512_p1_0_S512x1 : S1x512.Transposes [1, 0] S512x1
  broadcasts_S512x1_S512x1024 : S512x1.Broadcasts S512x1024
  reduces_S512x1024_S1024 : S512x1024.Reduces [0] S1024
  broadcasts_S1x1_S1x1024 : S1x1.Broadcasts S1x1024
  inb_S1x2048x1024_S1x512x1024_0_512_0 : ∀ a, (![0, 512, 0] : Fin 3 → Nat) a + S1x512x1024.size a ≤ S1x2048x1024.size a
  inb_S1x2048x1024_S1x512x1024_0_1024_0 : ∀ a, (![0, 1024, 0] : Fin 3 → Nat) a + S1x512x1024.size a ≤ S1x2048x1024.size a
  inb_S1x2048x1024_S1x512x1024_0_1536_0 : ∀ a, (![0, 1536, 0] : Fin 3 → Nat) a + S1x512x1024.size a ≤ S1x2048x1024.size a
  concatenates_S1x512_S1x512_S1x512_S1x512_S1x2048_d1 : Shape.Concatenates [S1x512, S1x512, S1x512, S1x512] S1x2048 1
  broadcasts_S1x1_S1x2048 : S1x1.Broadcasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S1x1024_S1x1x1024 : S1x1024.ShapeCasts S1x1x1024
  dot_S32x1024_S1024x1024_S32x1024_1_0_0_1_n_n_wf : DotDims.WF S32x1024 S1024x1024 S32x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S32x1x1024.size a
  hwx0_0 : ∀ i : grid0.Coords, EltTy.bits .f32 = 32 ∨ (Rect.block (s := S32x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S32x2048x1024.size a
  hwx0_1 : ∀ i : grid0.Coords, EltTy.bits .f32 = 32 ∨ (Rect.block (s := S32x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S32x1x1024.size a
  hwx0_6 : ∀ i : grid0.Coords, EltTy.bits .f32 = 32 ∨ (Rect.block (s := S32x1x1024) S1x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048.size a ≤ S32x1x2048.size a
  hwx0_7 : ∀ i : grid0.Coords, EltTy.bits .f32 = 32 ∨ (Rect.block (s := S32x1x2048) S1x1x2048.size (cc0_transform_7 i) (hinb0_7 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v10) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11_0) S1x1x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11_1) S1x1x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x1x1024 : Shape := ⟨3, ![32, 1, 1024]⟩
abbrev S32x2048x1024 : Shape := ⟨3, ![32, 2048, 1024]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1x1x1024 : Shape := ⟨3, ![1, 1, 1024]⟩
abbrev S32x2048x1 : Shape := ⟨3, ![32, 2048, 1]⟩
abbrev S1x1x1 : Shape := ⟨3, ![1, 1, 1]⟩
abbrev S32x2048 : Shape := ⟨2, ![32, 2048]⟩
abbrev S32x1x2048 : Shape := ⟨3, ![32, 1, 2048]⟩
abbrev S_ : Shape := ⟨0, ![]⟩
abbrev S32x1 : Shape := ⟨2, ![32, 1]⟩
abbrev S32x1x1 : Shape := ⟨3, ![32, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1, .f32⟩
  | .hbm, ⟨8, _⟩ => ⟨S32x1x1024, .f32⟩
  | .hbm, ⟨9, _⟩ => ⟨S1x1x1024, .f32⟩
  | .hbm, ⟨10, _⟩ => ⟨S32x1x1024, .f32⟩
  | .hbm, ⟨11, _⟩ => ⟨S32x1x1024, .f32⟩
  | .hbm, ⟨12, _⟩ => ⟨S32x2048x1024, .f32⟩
  | .hbm, ⟨13, _⟩ => ⟨S1x1x1024, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S32x2048x1, .f32⟩
  | .hbm, ⟨20, _⟩ => ⟨S1x1x1, .f32⟩
  | .hbm, ⟨21, _⟩ => ⟨S32x2048x1, .f32⟩
  | .hbm, ⟨22, _⟩ => ⟨S32x2048x1, .f32⟩
  | .hbm, ⟨23, _⟩ => ⟨S32x2048, .f32⟩
  | .hbm, ⟨24, _⟩ => ⟨S32x1x2048, .f32⟩
  | .hbm, ⟨25, _⟩ => ⟨S_, .f32⟩
  | .hbm, ⟨26, _⟩ => ⟨S32x1, .f32⟩
  | .hbm, ⟨27, _⟩ => ⟨S_, .f32⟩
  | .hbm, ⟨28, _⟩ => ⟨S32x1, .f32⟩
  | .hbm, ⟨29, _⟩ => ⟨S32x1, .f32⟩
  | .hbm, ⟨30, _⟩ => ⟨S32x1x1, .f32⟩
  | .hbm, ⟨31, _⟩ => ⟨S32x1x2048, .f32⟩
  | .hbm, ⟨32, _⟩ => ⟨S32x1x2048, .f32⟩
  | .hbm, ⟨33, _⟩ => ⟨S32x1x2048, .f32⟩
  | .hbm, ⟨34, _⟩ => ⟨S_, .f32⟩
  | .hbm, ⟨35, _⟩ => ⟨S32x1, .f32⟩
  | .hbm, ⟨36, _⟩ => ⟨S32x1x1, .f32⟩
  | .hbm, ⟨37, _⟩ => ⟨S32x1x2048, .f32⟩
  | .hbm, ⟨38, _⟩ => ⟨S32x1x2048, .f32⟩
  | .hbm, ⟨39, _⟩ => ⟨S32x1x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x1x1024_0_1_2 : S1x1x1024.BroadcastsInDim S32x1x1024 (![0, 1, 2] : Fin 3 → Fin S32x1x1024.rank)
  bcast_S1x1x1024_S32x2048x1024_0_1_2 : S1x1x1024.BroadcastsInDim S32x2048x1024 (![0, 1, 2] : Fin 3 → Fin S32x2048x1024.rank)
  bcast_S32x1x1024_S32x2048x1024_0_1_2 : S32x1x1024.BroadcastsInDim S32x2048x1024 (![0, 1, 2] : Fin 3 → Fin S32x2048x1024.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  shapeCasts_S32x2048x1_S32x2048 : S32x2048x1.ShapeCasts S32x2048
  bcast_S32x2048_S32x1x2048_0_2 : S32x2048.BroadcastsInDim S32x1x2048 (![0, 2] : Fin 2 → Fin S32x1x2048.rank)
  reducesTo_S32x1x2048_S32x1_d2 : S32x1x2048.ReducesTo [2] S32x1
  h_S_ : 0 < S_.numel
  bcast_S_S32x1 : S_.BroadcastsInDim S32x1 (![] : Fin 0 → Fin S32x1.rank)
  bcast_S32x1_S32x1x1_0_1 : S32x1.BroadcastsInDim S32x1x1 (![0, 1] : Fin 2 → Fin S32x1x1.rank)
  bcast_S32x1x1_S32x1x2048_0_1_2 : S32x1x1.BroadcastsInDim S32x1x2048 (![0, 1, 2] : Fin 3 → Fin S32x1x2048.rank)
  dot_S32x1x1024_S1024x1024_S32x1x1024_2_1_01_0_n_n_wf : DotDims.WF S32x1x1024 S1024x1024 S32x1x1024 [2] [1] [0, 1] [0] [] []
  dot_S32x2048x1024_S1024x1024_S32x2048x1024_2_1_01_0_n_n_wf : DotDims.WF S32x2048x1024 S1024x1024 S32x2048x1024 [2] [1] [0, 1] [0] [] []
  dot_S32x2048x1024_S1x1024_S32x2048x1_2_1_01_0_n_n_wf : DotDims.WF S32x2048x1024 S1x1024 S32x2048x1 [2] [1] [0, 1] [0] [] []
  dot_S32x1x2048_S32x2048x1024_S32x1x1024_2_1_1_2_0_0_wf : DotDims.WF S32x1x2048 S32x2048x1024 S32x1x1024 [2] [1] [1] [2] [0] [0]

variable [Facts₀]

def dot_S32x1x1024_S1024x1024_S32x1x1024_2_1_01_0_n_n : DotDims S32x1x1024 S1024x1024 S32x1x1024 where
  lhsContracting := [2]
  rhsContracting := [1]
  lhsNonContracting := [0, 1]
  rhsNonContracting := [0]
  lhsBatch := []
  rhsBatch := []
  wf := dot_S32x1x1024_S1024x1024_S32x1x1024_2_1_01_0_n_n_wf
def dot_S32x2048x1024_S1024x1024_S32x2048x1024_2_1_01_0_n_n : DotDims S32x2048x1024 S1024x1024 S32x2048x1024 where
  lhsContracting := [2]
  rhsContracting := [1]
  lhsNonContracting := [0, 1]
  rhsNonContracting := [0]
  lhsBatch := []
  rhsBatch := []
  wf := dot_S32x2048x1024_S1024x1024_S32x2048x1024_2_1_01_0_n_n_wf
def dot_S32x2048x1024_S1x1024_S32x2048x1_2_1_01_0_n_n : DotDims S32x2048x1024 S1x1024 S32x2048x1 where
  lhsContracting := [2]
  rhsContracting := [1]
  lhsNonContracting := [0, 1]
  rhsNonContracting := [0]
  lhsBatch := []
  rhsBatch := []
  wf := dot_S32x2048x1024_S1x1024_S32x2048x1_2_1_01_0_n_n_wf
def dot_S32x1x2048_S32x2048x1024_S32x1x1024_2_1_1_2_0_0 : DotDims S32x1x2048 S32x2048x1024 S32x1x1024 where
  lhsContracting := [2]
  rhsContracting := [1]
  lhsNonContracting := [1]
  rhsNonContracting := [2]
  lhsBatch := [0]
  rhsBatch := [0]
  wf := dot_S32x1x2048_S32x2048x1024_S32x1x1024_2_1_1_2_0_0_wf

class Facts : Prop extends Facts₀ where

variable [Facts]
-- ==== Proof.Softmax.lean ====
/-
  The mathematics that joins the two programs, over the extended reals and with no program in sight.

  One attention row has 2048 scores `sc s` and, for a fixed output lane, 2048 key entries `k s`.
  The reference takes the softmax of the whole row at once: with `M` the row's maximum,
  `w s = e^(sc s − M) / ∑ e^(sc s' − M)`, and the context lane is `∑ w s · k s`.
  The kernel walks the row in four chunks of 512 and carries a running maximum `m`, a running
  denominator `l` and a running numerator `a` (the "online" softmax): a chunk with maximum `μ`
  moves `m` to `m' = max m μ`, rescales what it carries by `α = e^(m − m')` and adds the chunk's
  terms `e^(sc s − m')`; it starts from `m = −∞`, `l = a = 0`, where `α = e^(−∞) = 0`.
  When every score and every key entry is a real number both are the same two numbers,
  `e^(sc s) / Z` and `(∑ e^(sc s) · k s) / Z` with `Z = ∑ e^(sc s)`: whatever real number a maximum is,
  it cancels, because `e^(x − m) = e^(−m) · e^x`.
-/
import Idealize.ShloMosaic.PureOps.Ideal
import Mathlib.Data.Finset.Fold

noncomputable section

namespace Cert.Attn

open Idealize.ShloMosaic

/-- Row `j` of chunk `c` among the 2048 rows. -/
abbrev row (c : Fin 4) (j : Fin 512) : Fin 2048 := ⟨512 * c.val + j.val, by have := c.isLt; have := j.isLt; omega⟩

/-- Chunk `c` of a row of 2048 entries. -/
def ch (x : Fin 2048 → EReal) (c : Fin 4) : Fin 512 → EReal := fun j => x (row c j)

/-! ## One step of the kernel's walk -/

/-- A chunk's maximum, from `−∞`. -/
def chunkMax (s : Fin 512 → EReal) : EReal := (Finset.univ : Finset (Fin 512)).fold max ⊥ s
/-- The running maximum after the chunk. -/
def stepM (m : EReal) (s : Fin 512 → EReal) : EReal := max m (chunkMax s)
/-- The factor that rescales what was carried. -/
def stepA (m : EReal) (s : Fin 512 → EReal) : EReal := Ideal.exp (m - stepM m s)
/-- The chunk's terms against the new maximum. -/
def stepP (m : EReal) (s : Fin 512 → EReal) (j : Fin 512) : EReal := Ideal.exp (s j - stepM m s)
/-- The running denominator after the chunk. -/
def stepL (m l : EReal) (s : Fin 512 → EReal) : EReal := stepA m s * l + ∑ j : Fin 512, stepP m s j
/-- The running numerator (one output lane) after the chunk. -/
def stepC (m a : EReal) (s k : Fin 512 → EReal) : EReal := stepA m s * a + ∑ j : Fin 512, stepP m s j * k j

/-! ## The kernel's four steps -/

def m1 (sc : Fin 2048 → EReal) : EReal := stepM ⊥ (ch sc 0)
def m2 (sc : Fin 2048 → EReal) : EReal := stepM (m1 sc) (ch sc 1)
def m3 (sc : Fin 2048 → EReal) : EReal := stepM (m2 sc) (ch sc 2)
def m4 (sc : Fin 2048 → EReal) : EReal := stepM (m3 sc) (ch sc 3)
def l1 (sc : Fin 2048 → EReal) : EReal := stepL ⊥ 0 (ch sc 0)
def l2 (sc : Fin 2048 → EReal) : EReal := stepL (m1 sc) (l1 sc) (ch sc 1)
def l3 (sc : Fin 2048 → EReal) : EReal := stepL (m2 sc) (l2 sc) (ch sc 2)
def l4 (sc : Fin 2048 → EReal) : EReal := stepL (m3 sc) (l3 sc) (ch sc 3)
def a1 (sc k : Fin 2048 → EReal) : EReal := stepC ⊥ 0 (ch sc 0) (ch k 0)
def a2 (sc k : Fin 2048 → EReal) : EReal := stepC (m1 sc) (a1 sc k) (ch sc 1) (ch k 1)
def a3 (sc k : Fin 2048 → EReal) : EReal := stepC (m2 sc) (a2 sc k) (ch sc 2) (ch k 2)
def a4 (sc k : Fin 2048 → EReal) : EReal := stepC (m3 sc) (a3 sc k) (ch sc 3) (ch k 3)

/-- The kernel's weight of row `s`. -/
def kW (sc : Fin 2048 → EReal) (s : Fin 2048) : EReal := Ideal.div (Ideal.exp (sc s - m4 sc)) (l4 sc)
/-- The kernel's context lane. -/
def kC (sc k : Fin 2048 → EReal) : EReal := Ideal.div (a4 sc k) (l4 sc)

/-! ## The reference's softmax -/

def rM (sc : Fin 2048 → EReal) : EReal := max ⊥ ((Finset.univ : Finset (Fin 2048)).fold max ⊥ sc)
def rE (sc : Fin 2048 → EReal) (s : Fin 2048) : EReal := Ideal.exp (sc s - rM sc)
def rL (sc : Fin 2048 → EReal) : EReal := 0 + ∑ s : Fin 2048, rE sc s
/-- The reference's weight of row `s`. -/
def rW (sc : Fin 2048 → EReal) (s : Fin 2048) : EReal := Ideal.div (rE sc s) (rL sc)
/-- The reference's context lane. -/
def rC (sc k : Fin 2048 → EReal) : EReal := ∑ s : Fin 2048, rW sc s * k s

/-! ## They agree on real rows -/

/-- The coercion of a finite sum of real numbers is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum, from `−∞`, of a nonempty finite family of real numbers is a real number. -/
theorem fold_max_real {ι : Type*} (t : Finset ι) (ht : t.Nonempty) (f : ι → EReal)
    (hf : ∀ i, ∃ r : ℝ, f i = (r : EReal)) : ∃ μ : ℝ, t.fold max ⊥ f = (μ : EReal) := by
  have h1 : t.fold max ⊥ f ≠ ⊥ := by
    obtain ⟨a, ha⟩ := ht
    obtain ⟨r, hr⟩ := hf a
    have hle : (r : EReal) ≤ t.fold max ⊥ f := (Finset.le_fold_max _).mpr (Or.inr ⟨a, ha, hr ▸ le_rfl⟩)
    intro h
    rw [h] at hle
    exact absurd hle (not_le.mpr (EReal.bot_lt_coe r))
  have h2 : t.fold max ⊥ f ≠ ⊤ := by
    have hlt : t.fold max ⊥ f < ⊤ :=
      (Finset.fold_max_lt _).mpr ⟨bot_lt_top, fun x _ => by
        obtain ⟨r, hr⟩ := hf x
        rw [hr]
        exact EReal.coe_lt_top r⟩
    exact hlt.ne
  exact ⟨_, (EReal.coe_toReal h2 h1).symm⟩

/-- `e^(x − μ) = e^(−μ) · e^x` on real numbers. -/
theorem exp_sub_coe (x μ : ℝ) :
    Ideal.exp ((x : EReal) - (μ : EReal)) = ((Real.exp (-μ) * Real.exp x : ℝ) : EReal) := by
  rw [← EReal.coe_sub, Ideal.exp_coe, sub_eq_neg_add, Real.exp_add]

/-- The running maximum after a chunk of real scores is a real number, from `−∞` or from a real number. -/
theorem stepM_real (m : EReal) (hm : m = ⊥ ∨ ∃ r : ℝ, m = (r : EReal)) (s : Fin 512 → EReal)
    (hs : ∀ j, ∃ r : ℝ, s j = (r : EReal)) : ∃ μ : ℝ, stepM m s = (μ : EReal) := by
  obtain ⟨c, hc⟩ := fold_max_real Finset.univ Finset.univ_nonempty s hs
  rcases hm with rfl | ⟨r, rfl⟩
  · exact ⟨c, by rw [stepM, chunkMax, hc, max_eq_right bot_le]⟩
  · rcases le_total (r : EReal) (c : EReal) with h | h
    · exact ⟨c, by rw [stepM, chunkMax, hc, max_eq_right h]⟩
    · exact ⟨r, by rw [stepM, chunkMax, hc, max_eq_left h]⟩

section Step

variable {s k : Fin 512 → EReal} {σ κ : Fin 512 → ℝ}

/-- A chunk's term against the new maximum `μ` is `e^(−μ) · e^(σ j)`. -/
theorem stepP_eq (m : EReal) (μ : ℝ) (hμ : stepM m s = (μ : EReal)) (hs : ∀ j, s j = (σ j : EReal)) (j : Fin 512) :
    stepP m s j = ((Real.exp (-μ) * Real.exp (σ j) : ℝ) : EReal) := by
  rw [stepP, hμ, hs j, exp_sub_coe]

/-- The chunk's terms sum to `e^(−μ) · ∑ e^(σ j)`. -/
theorem sum_stepP (m : EReal) (μ : ℝ) (hμ : stepM m s = (μ : EReal)) (hs : ∀ j, s j = (σ j : EReal)) :
    ∑ j : Fin 512, stepP m s j = ((Real.exp (-μ) * ∑ j : Fin 512, Real.exp (σ j) : ℝ) : EReal) := by
  rw [Finset.mul_sum, coe_sum]
  exact Finset.sum_congr rfl (fun j _ => stepP_eq m μ hμ hs j)

/-- The chunk's terms against the key entries sum to `e^(−μ) · ∑ e^(σ j) · κ j`. -/
theorem sum_stepP_mul (m : EReal) (μ : ℝ) (hμ : stepM m s = (μ : EReal)) (hs : ∀ j, s j = (σ j : EReal))
    (hk : ∀ j, k j = (κ j : EReal)) :
    ∑ j : Fin 512, stepP m s j * k j = ((Real.exp (-μ) * ∑ j : Fin 512, Real.exp (σ j) * κ j : ℝ) : EReal) := by
  rw [Finset.mul_sum, coe_sum]
  refine Finset.sum_congr rfl (fun j _ => ?_)
  rw [stepP_eq m μ hμ hs j, hk j, ← EReal.coe_mul, mul_assoc]

/-- The first step, from `m = −∞`, `l = a = 0`: the new maximum is a real `μ` and what is carried is
    `e^(−μ)` times the chunk's sums. -/
theorem step_bot (hs : ∀ j, s j = (σ j : EReal)) (hk : ∀ j, k j = (κ j : EReal)) :
    ∃ μ : ℝ, stepM ⊥ s = (μ : EReal)
      ∧ stepL ⊥ 0 s = ((Real.exp (-μ) * ∑ j : Fin 512, Real.exp (σ j) : ℝ) : EReal)
      ∧ stepC ⊥ 0 s k = ((Real.exp (-μ) * ∑ j : Fin 512, Real.exp (σ j) * κ j : ℝ) : EReal) := by
  obtain ⟨μ, hμ⟩ := stepM_real ⊥ (Or.inl rfl) s (fun j => ⟨σ j, hs j⟩)
  refine ⟨μ, hμ, ?_, ?_⟩
  · rw [stepL, mul_zero, zero_add, sum_stepP ⊥ μ hμ hs]
  · rw [stepC, mul_zero, zero_add, sum_stepP_mul ⊥ μ hμ hs hk]

/-- A later step, from a real maximum `μ₀` carrying `e^(−μ₀) · Z` and `e^(−μ₀) · Y`: the new maximum is a
    real `μ` and what is carried is `e^(−μ)` times the sums with the chunk's added, because
    `e^(μ₀ − μ) · e^(−μ₀) = e^(−μ)`. -/
theorem step_real (μ₀ Z Y : ℝ) (hs : ∀ j, s j = (σ j : EReal)) (hk : ∀ j, k j = (κ j : EReal)) :
    ∃ μ : ℝ, stepM (μ₀ : EReal) s = (μ : EReal)
      ∧ stepL (μ₀ : EReal) ((Real.exp (-μ₀) * Z : ℝ) : EReal) s
          = ((Real.exp (-μ) * (Z + ∑ j : Fin 512, Real.exp (σ j)) : ℝ) : EReal)
      ∧ stepC (μ₀ : EReal) ((Real.exp (-μ₀) * Y : ℝ) : EReal) s k
          = ((Real.exp (-μ) * (Y + ∑ j : Fin 512, Real.exp (σ j) * κ j) : ℝ) : EReal) := by
  obtain ⟨μ, hμ⟩ := stepM_real (μ₀ : EReal) (Or.inr ⟨μ₀, rfl⟩) s (fun j => ⟨σ j, hs j⟩)
  have hA : stepA (μ₀ : EReal) s = ((Real.exp (-μ) * Real.exp μ₀ : ℝ) : EReal) := by
    rw [stepA, hμ, exp_sub_coe]
  have key : ∀ X : ℝ, Real.exp (-μ) * Real.exp μ₀ * (Real.exp (-μ₀) * X) = Real.exp (-μ) * X := by
    intro X
    rw [mul_assoc, ← mul_assoc (Real.exp μ₀), ← Real.exp_add, add_neg_cancel, Real.exp_zero, one_mul]
  refine ⟨μ, hμ, ?_, ?_⟩
  · rw [stepL, hA, sum_stepP _ μ hμ hs, ← EReal.coe_mul, ← EReal.coe_add, key, mul_add]
  · rw [stepC, hA, sum_stepP_mul _ μ hμ hs hk, ← EReal.coe_mul, ← EReal.coe_add, key, mul_add]

end Step

/-- A sum over the 2048 rows is the sum over the four chunks of the sums over a chunk's 512 rows. -/
theorem sum_chunks (g : Fin 2048 → ℝ) :
    ∑ s : Fin 2048, g s
      = ∑ j : Fin 512, g (row 0 j) + ∑ j : Fin 512, g (row 1 j) + ∑ j : Fin 512, g (row 2 j)
        + ∑ j : Fin 512, g (row 3 j) := by
  have e : Fin 4 × Fin 512 ≃ Fin 2048 := finProdFinEquiv
  have h : ∑ p : Fin 4 × Fin 512, g (row p.1 p.2) = ∑ s : Fin 2048, g s :=
    Fintype.sum_equiv (finProdFinEquiv : Fin 4 × Fin 512 ≃ Fin 2048) _ _
      (fun p => congrArg g (Fin.ext (by simp [finProdFinEquiv]; omega)))
  rw [← h, Fintype.sum_prod_type, Fin.sum_univ_four]

/-- The kernel's walk on real rows: after the four chunks the maximum is a real `μ`, the denominator is
    `e^(−μ) · ∑ e^(σ s)` and the numerator is `e^(−μ) · ∑ e^(σ s) · κ s`. -/
theorem kernel_real (sc k : Fin 2048 → EReal) (σ κ : Fin 2048 → ℝ) (hσ : ∀ s, sc s = (σ s : EReal))
    (hκ : ∀ s, k s = (κ s : EReal)) :
    ∃ μ : ℝ, m4 sc = (μ : EReal)
      ∧ l4 sc = ((Real.exp (-μ) * ∑ s : Fin 2048, Real.exp (σ s) : ℝ) : EReal)
      ∧ a4 sc k = ((Real.exp (-μ) * ∑ s : Fin 2048, Real.exp (σ s) * κ s : ℝ) : EReal) := by
  have hc : ∀ c j, ch sc c j = ((fun j => σ (row c j)) j : EReal) := fun c j => hσ _
  have hck : ∀ c j, ch k c j = ((fun j => κ (row c j)) j : EReal) := fun c j => hκ _
  obtain ⟨μ1, h1m, h1l, h1a⟩ := step_bot (hc 0) (hck 0)
  obtain ⟨μ2, h2m, h2l, h2a⟩ := step_real μ1 _ _ (hc 1) (hck 1)
  obtain ⟨μ3, h3m, h3l, h3a⟩ := step_real μ2 _ _ (hc 2) (hck 2)
  obtain ⟨μ4, h4m, h4l, h4a⟩ := step_real μ3 _ _ (hc 3) (hck 3)
  have e1m : m1 sc = (μ1 : EReal) := h1m
  have e2m : m2 sc = (μ2 : EReal) := by rw [m2, e1m]; exact h2m
  have e3m : m3 sc = (μ3 : EReal) := by rw [m3, e2m]; exact h3m
  refine ⟨μ4, ?_, ?_, ?_⟩
  · rw [m4, e3m]; exact h4m
  · rw [l4, l3, l2, l1, e3m, e2m, e1m, h1l, h2l, h3l, h4l, sum_chunks]
  · rw [a4, a3, a2, a1, e3m, e2m, e1m, h1a, h2a, h3a, h4a, sum_chunks (fun s => Real.exp (σ s) * κ s)]

/-- The common factor `e^(−μ)` cancels in a quotient. -/
theorem div_norm (μ x Z : ℝ) (hZ : 0 < Z) :
    Ideal.div ((Real.exp (-μ) * x : ℝ) : EReal) ((Real.exp (-μ) * Z : ℝ) : EReal) = ((x / Z : ℝ) : EReal) := by
  have hE : Real.exp (-μ) ≠ 0 := Real.exp_ne_zero _
  have hne : Real.exp (-μ) * Z ≠ 0 := mul_ne_zero hE hZ.ne'
  rw [Ideal.div_coe hne, ← EReal.coe_mul]
  congr 1
  field_simp

/-- The sum of the exponentials of a row of real scores is positive. -/
theorem sum_exp_pos (σ : Fin 2048 → ℝ) : 0 < ∑ s : Fin 2048, Real.exp (σ s) :=
  Finset.sum_pos (fun _ _ => Real.exp_pos _) Finset.univ_nonempty

/-- The reference on a real row: its maximum is a real `M` and its denominator is `e^(−M) · ∑ e^(σ s)`. -/
theorem ref_real (sc : Fin 2048 → EReal) (σ : Fin 2048 → ℝ) (hσ : ∀ s, sc s = (σ s : EReal)) :
    ∃ M : ℝ, (∀ s, rE sc s = ((Real.exp (-M) * Real.exp (σ s) : ℝ) : EReal))
      ∧ rL sc = ((Real.exp (-M) * ∑ s : Fin 2048, Real.exp (σ s) : ℝ) : EReal) := by
  obtain ⟨M, hM⟩ := fold_max_real Finset.univ Finset.univ_nonempty sc (fun s => ⟨σ s, hσ s⟩)
  have hrM : rM sc = (M : EReal) := by rw [rM, hM, max_eq_right bot_le]
  have hE : ∀ s, rE sc s = ((Real.exp (-M) * Real.exp (σ s) : ℝ) : EReal) := fun s => by
    rw [rE, hrM, hσ s, exp_sub_coe]
  refine ⟨M, hE, ?_⟩
  rw [rL, zero_add, Finset.mul_sum, coe_sum]
  exact Finset.sum_congr rfl (fun s _ => hE s)

/-- The reference's weight on a real row is `e^(σ s) / ∑ e^(σ s')`. -/
theorem rW_real (sc : Fin 2048 → EReal) (σ : Fin 2048 → ℝ) (hσ : ∀ s, sc s = (σ s : EReal)) (s : Fin 2048) :
    rW sc s = ((Real.exp (σ s) / ∑ s' : Fin 2048, Real.exp (σ s') : ℝ) : EReal) := by
  obtain ⟨M, hE, hL⟩ := ref_real sc σ hσ
  rw [rW, hE s, hL, div_norm _ _ _ (sum_exp_pos σ)]

/-- With real scores the kernel's weight is the reference's. -/
theorem kW_eq_rW (sc : Fin 2048 → EReal) (h : ∀ s, ∃ r : ℝ, sc s = (r : EReal)) (s : Fin 2048) :
    kW sc s = rW sc s := by
  choose σ hσ using h
  obtain ⟨μ, hm, hl, -⟩ := kernel_real sc sc σ σ hσ hσ
  rw [rW_real sc σ hσ s, kW, hm, hl, hσ s, exp_sub_coe, div_norm _ _ _ (sum_exp_pos σ)]

/-- With real scores and real key entries the kernel's context lane is the reference's. -/
theorem kC_eq_rC (sc k : Fin 2048 → EReal) (h : ∀ s, ∃ r : ℝ, sc s = (r : EReal)) (hk : ∀ s, ∃ r : ℝ, k s = (r : EReal)) :
    kC sc k = rC sc k := by
  choose σ hσ using h
  choose κ hκ using hk
  obtain ⟨μ, -, hl, ha⟩ := kernel_real sc k σ κ hσ hκ
  rw [kC, ha, hl, div_norm _ _ _ (sum_exp_pos σ), rC, Finset.sum_div, coe_sum]
  refine Finset.sum_congr rfl (fun s _ => ?_)
  rw [rW_real sc σ hσ s, hκ s, ← EReal.coe_mul, div_mul_eq_mul_div]

end Cert.Attn

end
-- ==== Proof.Ops.lean ====
/-
  The kernel body's vector operations, read at an index at the ideal values.

  The body treats one batch row in four chunks of 512 key rows.  Per chunk it forms a row of 512 scores
  (a 512×1024 by 1024×1024 product, two row broadcasts added, tanh, a product with the `Va` row summed over the
  lanes, a bias, a transpose to a 1×512 row), then updates the running maximum, the rescaling factor, the chunk's
  exponentials, the running denominator and the running numerator.  Each definition below is that composition of printed
  operations, named; each `_apply` lemma says what it holds at one index, as sums and products of its operands' entries.
-/
import proofs.«416888_j54065048322491_3_alg».proof.Proof.Gen.KernelIdeal
import proofs.«416888_j54065048322491_3_alg».proof.Proof.Softmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ops

open Cert.KernelIdeal Cert.KernelIdeal.Facts₀ Idealize.ShloMosaic Idealize.ShloMosaic.ValueIdx Cert.Attn

/-! ## Layout operations at the column and unit shapes -/

section Layout
variable {α : Type}

/-- A `[1, 1]` array broadcast to `[1, b]` reads its one entry everywhere. -/
theorem broadcastTo_11_1b_apply {b : ℕ} (v : (⟨2, ![1, 1]⟩ : Shape).Idx → α) (h : (⟨2, ![1, 1]⟩ : Shape).Broadcasts ⟨2, ![1, b]⟩)
    (u : Fin 1) (c : Fin b) : broadcastTo ⟨2, ![1, b]⟩ v h (ix2 u c) = v (ix2 (0 : Fin 1) (0 : Fin 1)) := by
  refine broadcastTo_apply v h (ix2 u c) (ix2 (0 : Fin 1) (0 : Fin 1)) fun ax => ?_
  match ax with
  | ⟨0, _⟩ =>
    show 0 = if (1 : ℕ) = 1 then 0 else u.val
    rw [if_pos rfl]
  | ⟨1, _⟩ =>
    show 0 = if (1 : ℕ) = 1 then 0 else c.val
    rw [if_pos rfl]

/-- A `[1, 1]` array broadcast to `[a, 1]` reads its one entry everywhere. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ =>
    show 0 = if (1 : ℕ) = 1 then 0 else p.val
    rw [if_pos rfl]
  | ⟨1, _⟩ =>
    show 0 = if (1 : ℕ) = 1 then 0 else u.val
    rw [if_pos rfl]

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## Unit-axis casts -/

theorem cast_1x1x1024 (x : Vec Ideal S1x1x1024 .f32) (o : Fin 1024) :
    shapeCast S1x1024 x shapeCasts_S1x1x1024_S1x1024 (ix2 (0 : Fin 1) o) = x (ix3 (0 : Fin 1) (0 : Fin 1) o) :=
  shapeCast_1ab_ab_apply x _ (0 : Fin 1) o

theorem cast_1x512x1024 (x : Vec Ideal S1x512x1024 .f32) (j : Fin 512) (h : Fin 1024) :
    shapeCast S512x1024 x shapeCasts_S1x512x1024_S512x1024 (ix2 j h) = x (ix3 (0 : Fin 1) j h) :=
  shapeCast_1ab_ab_apply x _ j h

theorem cast_1x1024_up (x : FVec Ideal S1x1024 .f32) (h : Fin 1024) :
    shapeCast S1x1x1024 x shapeCasts_S1x1024_S1x1x1024 (ix3 (0 : Fin 1) (0 : Fin 1) h) = x (ix2 (0 : Fin 1) h) :=
  shapeCast_ab_1ab_apply x _ (0 : Fin 1) (0 : Fin 1) h

theorem cast_1x2048_up (x : FVec Ideal S1x2048 .f32) (s : Fin 2048) :
    shapeCast S1x1x2048 x shapeCasts_S1x2048_S1x1x2048 (ix3 (0 : Fin 1) (0 : Fin 1) s) = x (ix2 (0 : Fin 1) s) :=
  shapeCast_ab_1ab_apply x _ (0 : Fin 1) (0 : Fin 1) s

/-! ## Broadcasts of the 1×1 running values -/

theorem bcast_1x1_1x1024 (a : FVec Ideal S1x1 .f32) (h : Fin 1024) :
    broadcastTo S1x1024 a broadcasts_S1x1_S1x1024 (ix2 (0 : Fin 1) h) = a (ix2 (0 : Fin 1) (0 : Fin 1)) :=
  broadcastTo_11_1b_apply a _ (0 : Fin 1) h

theorem bcast_1x1_1x2048 (a : FVec Ideal S1x1 .f32) (s : Fin 2048) :
    broadcastTo S1x2048 a broadcasts_S1x1_S1x2048 (ix2 (0 : Fin 1) s) = a (ix2 (0 : Fin 1) (0 : Fin 1)) :=
  broadcastTo_11_1b_apply a _ (0 : Fin 1) s

/-! ## The chunk's product with the key weights -/

theorem lhs_dot_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_dot_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_dot_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_dot_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The chunk's 512×1024 by 1024×1024 product into the zero splat, at `(j, o)`: the sum over the contracted axis. -/
theorem matmul_chunk_apply (A : FVec Ideal S512x1024 .f32) (U : FVec Ideal S1024x1024 .bf16) (j : Fin 512) (o : Fin 1024) :
    matmul dot_S512x1024_S1024x1024_S512x1024_1_0_0_1_n_n none (truncf .bf16 A bitsLt_bf16_f32) U (constant S512x1024 .f32 0x00000000#32) (ix2 j o)
      = ∑ h : Fin 1024, A (ix2 j h) * U (ix2 h o) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 j o) ((contrEquiv1 dot_S512x1024_S1024x1024_S512x1024_1_0_0_1_n_n 1024 rfl rfl).symm k) = ix2 j k := funext fun a => Fin.ext (by
    match a with
    | ⟨0, _⟩ => exact lhs_dot_0 _ _
    | ⟨1, _⟩ => exact (lhs_dot_1 _ _).trans hk)
  have er : dot_S512x1024_S1024x1024_S512x1024_1_0_0_1_n_n.rhsIdx (ix2 j o) ((contrEquiv1 dot_S512x1024_S1024x1024_S512x1024_1_0_0_1_n_n 1024 rfl rfl).symm k) = ix2 k o := funext fun a => Fin.ext (by
    match a with
    | ⟨0, _⟩ => exact (rhs_dot_0 _ _).trans hk
    | ⟨1, _⟩ => exact rhs_dot_1 _ _)
  rw [el, er]
  rfl

/-! ## A chunk's score row -/

/-- The 1×512 score row of one chunk of 512 key rows `Kc`: `q` the query projection's row, `ub` the key bias row, `va` the
    score weights' row, `vb` the score bias, `U` the transposed key weights. -/
def scoreRow (q ub : FVec Ideal S1x1024 .f32) (va : FVec Ideal S1x1024 .f32) (vb : FVec Ideal S1x1 .f32)
    (U : FVec Ideal S1024x1024 .bf16) (Kc : FVec Ideal S512x1024 .f32) : FVec Ideal S1x512 .f32 :=
  transpose S1x512 [1, 0]
    (addf
      (shapeCast S512x1
        (multiReduction .add [1] S512
          (mulf
            (tanh (addf (broadcastTo S512x1024 q broadcasts_S1x1024_S512x1024)
              (addf (matmul dot_S512x1024_S1024x1024_S512x1024_1_0_0_1_n_n none (truncf .bf16 Kc bitsLt_bf16_f32) U (constant S512x1024 .f32 0x00000000#32))
                (broadcastTo S512x1024 ub broadcasts_S1x1024_S512x1024))))
            (broadcastTo S512x1024 va broadcasts_S1x1024_S512x1024))
          0x00000000#32 reduces_S512x1024_S512 (.inl rfl) rfl)
        shapeCasts_S512_S512x1)
      (broadcastTo S512x1 vb broadcasts_S1x1_S512x1))
    transposes_S512x1_p1_0_S1x512

/-- Row `j` of the chunk scores `∑ₒ tanh(qₒ + (∑ₕ K(j,h)·U(h,o) + ubₒ)) · vaₒ + vb`. -/
theorem scoreRow_apply (q ub va : FVec Ideal S1x1024 .f32) (vb : FVec Ideal S1x1 .f32)
    (U : FVec Ideal S1024x1024 .bf16) (Kc : FVec Ideal S512x1024 .f32) (j : Fin 512) :
    scoreRow q ub va vb U Kc (ix2 (0 : Fin 1) j)
      = (∑ o : Fin 1024, Ideal.tanh (q (ix2 (0 : Fin 1) o) + ((∑ h : Fin 1024, Kc (ix2 j h) * U (ix2 h o)) + ub (ix2 (0 : Fin 1) o))) * va (ix2 (0 : Fin 1) o))
        + vb (ix2 (0 : Fin 1) (0 : Fin 1)) := by
  unfold scoreRow
  refine (transpose_ix2_apply _ _ (0 : Fin 1) j).trans ?_
  rw [addf_apply, broadcastTo_11_a1_apply vb _ j (0 : Fin 1)]
  refine congrArg (· + vb (ix2 (0 : Fin 1) (0 : Fin 1))) ?_
  refine (shapeCast_a_a1_apply _ _ j (0 : Fin 1)).trans ?_
  refine (Ideal.multiReduction_add_single _ _ reduces_S512x1024_S512 _ _ (ix1 j)).trans ?_
  refine Finset.sum_congr rfl fun (o : Fin 1024) _ => ?_
  have e : reduces_S512x1024_S512.lift (ix1 j) o = ix2 j o := funext fun c => Fin.ext (by
    match c with
    | ⟨0, _⟩ => rfl
    | ⟨1, _⟩ => rfl)
  rw [e]
  show Ideal.tanh (broadcastTo S512x1024 q broadcasts_S1x1024_S512x1024 (ix2 j o)
      + (matmul dot_S512x1024_S1024x1024_S512x1024_1_0_0_1_n_n none (truncf .bf16 Kc bitsLt_bf16_f32) U (constant S512x1024 .f32 0x00000000#32) (ix2 j o)
        + broadcastTo S512x1024 ub broadcasts_S1x1024_S512x1024 (ix2 j o)))
      * broadcastTo S512x1024 va broadcasts_S1x1024_S512x1024 (ix2 j o) = _
  rw [broadcastTo_1b_ab_apply q _ j o, broadcastTo_1b_ab_apply ub _ j o, broadcastTo_1b_ab_apply va _ j o, matmul_chunk_apply]

/-! ## One step of the walk -/

/-- The running maximum after a chunk whose score row is `sRow`. -/
def newMax (mOld : FVec Ideal S1x1 .f32) (sRow : FVec Ideal S1x512 .f32) : FVec Ideal S1x1 .f32 :=
  maximumf mOld (shapeCast S1x1 (multiReduction .maximumf [1] S1 sRow 0xFF800000#32 reduces_S1x512_S1 (.inl rfl) rfl) shapeCasts_S1_S1x1)

theorem newMax_apply (mOld : FVec Ideal S1x1 .f32) (sRow : FVec Ideal S1x512 .f32) :
    newMax mOld sRow (ix2 (0 : Fin 1) (0 : Fin 1)) = stepM (mOld (ix2 (0 : Fin 1) (0 : Fin 1))) (fun j => sRow (ix2 (0 : Fin 1) j)) := by
  unfold newMax stepM chunkMax
  rw [maximumf_apply]
  refine congrArg (max (mOld (ix2 (0 : Fin 1) (0 : Fin 1)))) ?_
  refine (shapeCast_a_1a_apply _ _ (0 : Fin 1) (0 : Fin 1)).trans ?_
  refine (Ideal.multiReduction_maximumf_single sRow _ reduces_S1x512_S1 _ _ (ix1 (0 : Fin 1))).trans ?_
  have hb : FloatOps.ofBits (F := Ideal) .f32 0xFF800000#32 = (⊥ : EReal) := by
    show Ideal.ofBits .f32 0xFF800000#32 = ⊥
    simp [Ideal.ofBits, Ideal.ieee]
  have hf : sRow ∘ reduces_S1x512_S1.lift (ix1 (0 : Fin 1)) = fun j : Fin 512 => sRow (ix2 (0 : Fin 1) j) :=
    funext fun k => congrArg sRow (funext fun c => Fin.ext (by
      match c with
      | ⟨0, _⟩ => rfl
      | ⟨1, _⟩ => rfl))
  rw [hb, hf]
  rfl

/-- The rescaling factor. -/
def alpha (mOld mNew : FVec Ideal S1x1 .f32) : FVec Ideal S1x1 .f32 := exp (subf mOld mNew)

theorem alpha_apply (mOld mNew : FVec Ideal S1x1 .f32) :
    alpha mOld mNew (ix2 (0 : Fin 1) (0 : Fin 1)) = Ideal.exp (mOld (ix2 (0 : Fin 1) (0 : Fin 1)) - mNew (ix2 (0 : Fin 1) (0 : Fin 1))) := rfl

/-- The chunk's exponentials against the new maximum. -/
def probs (sRow : FVec Ideal S1x512 .f32) (mNew : FVec Ideal S1x1 .f32) : FVec Ideal S1x512 .f32 :=
  exp (subf sRow (broadcastTo S1x512 mNew broadcasts_S1x1_S1x512))

theorem probs_apply (sRow : FVec Ideal S1x512 .f32) (mNew : FVec Ideal S1x1 .f32) (j : Fin 512) :
    probs sRow mNew (ix2 (0 : Fin 1) j) = Ideal.exp (sRow (ix2 (0 : Fin 1) j) - mNew (ix2 (0 : Fin 1) (0 : Fin 1))) := by
  show Ideal.exp (sRow (ix2 (0 : Fin 1) j) - broadcastTo S1x512 mNew broadcasts_S1x1_S1x512 (ix2 (0 : Fin 1) j)) = _
  rw [broadcastTo_11_1b_apply mNew _ (0 : Fin 1) j]

/-- The sum of a 1×512 row, as a 1×1 value. -/
def rowSum (p : FVec Ideal S1x512 .f32) : FVec Ideal S1x1 .f32 :=
  shapeCast S1x1 (multiReduction .add [1] S1 p 0x00000000#32 reduces_S1x512_S1 (.inl rfl) rfl) shapeCasts_S1_S1x1

theorem rowSum_apply (p : FVec Ideal S1x512 .f32) :
    rowSum p (ix2 (0 : Fin 1) (0 : Fin 1)) = ∑ j : Fin 512, p (ix2 (0 : Fin 1) j) := by
  unfold rowSum
  refine (shapeCast_a_1a_apply _ _ (0 : Fin 1) (0 : Fin 1)).trans ?_
  refine (Ideal.multiReduction_add_single p _ reduces_S1x512_S1 _ _ (ix1 (0 : Fin 1))).trans ?_
  refine Finset.sum_congr rfl fun k _ => ?_
  refine congrArg p (funext fun c => Fin.ext ?_)
  match c with
  | ⟨0, _⟩ => rfl
  | ⟨1, _⟩ => rfl

/-- The chunk's key rows weighted by `p` and summed over the rows, as a 1×1024 row. -/
def wsum (p : FVec Ideal S1x512 .f32) (Kc : FVec Ideal S512x1024 .f32) : FVec Ideal S1x1024 .f32 :=
  shapeCast S1x1024
    (multiReduction .add [0] S1024
      (mulf (broadcastTo S512x1024 (transpose S512x1 [1, 0] p transposes_S1x512_p1_0_S512x1) broadcasts_S512x1_S512x1024) Kc)
      0x00000000#32 reduces_S512x1024_S1024 (.inl rfl) rfl)
    shapeCasts_S1024_S1x1024

theorem wsum_apply (p : FVec Ideal S1x512 .f32) (Kc : FVec Ideal S512x1024 .f32) (h : Fin 1024) :
    wsum p Kc (ix2 (0 : Fin 1) h) = ∑ j : Fin 512, p (ix2 (0 : Fin 1) j) * Kc (ix2 j h) := by
  unfold wsum
  refine (shapeCast_a_1a_apply _ _ (0 : Fin 1) h).trans ?_
  refine (Ideal.multiReduction_add_single _ _ reduces_S512x1024_S1024 _ _ (ix1 h)).trans ?_
  refine Finset.sum_congr rfl fun (k : Fin 512) _ => ?_
  have e : reduces_S512x1024_S1024.lift (ix1 h) k = ix2 k h := funext fun c => Fin.ext (by
    match c with
    | ⟨0, _⟩ => rfl
    | ⟨1, _⟩ => rfl)
  rw [e]
  show broadcastTo S512x1024 (transpose S512x1 [1, 0] p transposes_S1x512_p1_0_S512x1) broadcasts_S512x1_S512x1024 (ix2 k h) * Kc (ix2 k h) = _
  rw [broadcastTo_a1_ab_apply, transpose_ix2_apply]

/-! ## The four score rows side by side -/

theorem concat4_apply (v0 v1 v2 v3 : FVec Ideal S1x512 .f32) (c : Fin 4) (j : Fin 512) :
    concatenate S1x2048 1 [⟨S1x512, v0⟩, ⟨S1x512, v1⟩, ⟨S1x512, v2⟩, ⟨S1x512, v3⟩] concatenates_S1x512_S1x512_S1x512_S1x512_S1x2048_d1 (ix2 (0 : Fin 1) (row c j))
      = (match c with | ⟨0, _⟩ => v0 | ⟨1, _⟩ => v1 | ⟨2, _⟩ => v2 | ⟨_ + 3, _⟩ => v3) (ix2 (0 : Fin 1) j) := by
  have hi : ∀ (r : Fin 2048) (b : Fin S1x512.rank), b.cast (rfl : S1x512.rank = S1x2048.rank) ≠ (1 : Fin S1x2048.rank) →
      ((ix2 (0 : Fin 1) j : S1x512.Idx) b).val = ((ix2 (0 : Fin 1) r : S1x2048.Idx) (b.cast rfl)).val := fun r b hb => by
    match b with
    | ⟨0, _⟩ => rfl
    | ⟨1, _⟩ => exact absurd rfl hb
  match c with
  | ⟨0, _⟩ =>
    exact concatenate_apply_piece (1 : Fin S1x2048.rank) _ _ _ 0 (by show (0 : ℕ) < 4; omega) S1x512 v0 rfl rfl 0 rfl (ix2 (0 : Fin 1) j) (hi _)
      (by show 0 + j.val = 512 * 0 + j.val; omega)
  | ⟨1, _⟩ =>
    exact concatenate_apply_piece (1 : Fin S1x2048.rank) _ _ _ 1 (by show (1 : ℕ) < 4; omega) S1x512 v1 rfl rfl 512 rfl (ix2 (0 : Fin 1) j) (hi _)
      (by show 512 + j.val = 512 * 1 + j.val; omega)
  | ⟨2, _⟩ =>
    exact concatenate_apply_piece (1 : Fin S1x2048.rank) _ _ _ 2 (by show (2 : ℕ) < 4; omega) S1x512 v2 rfl rfl 1024 rfl (ix2 (0 : Fin 1) j) (hi _)
      (by show 1024 + j.val = 512 * 2 + j.val; omega)
  | ⟨3, _⟩ =>
    exact concatenate_apply_piece (1 : Fin S1x2048.rank) _ _ _ 3 (by show (3 : ℕ) < 4; omega) S1x512 v3 rfl rfl 1536 rfl (ix2 (0 : Fin 1) j) (hi _)
      (by show 1536 + j.val = 512 * 3 + j.val; omega)

end Cert.KernelIdeal.Ops

end
-- ==== Proof.KernelBlock.lean ====
/-
  What the kernel body leaves in its two output blocks, read at an index, as the online softmax of Softmax.lean
  over one batch row's scores.

  The body is called with six input blocks: `x0` the query projection's row (1×1×1024), `x1` the batch row's 2048 key rows
  (1×2048×1024), `x2` the transposed key weights (1024×1024), `x3` the key bias row, `x4` the score weights' row (1×1024 each)
  and `x5` the score bias (1×1).  Key row `s` scores `ksc … s = ∑ₒ tanh(x0ₒ + (∑ₕ x1(s,h)·x2(h,o) + x3ₒ))·x4ₒ + x5`.
  The block of weights holds, at row `s`, the kernel's weight `kW` of these scores; the block of context holds, at lane `h`,
  the kernel's context lane `kC` of the scores and of column `h` of the key rows.
-/
import proofs.«416888_j54065048322491_3_alg».proof.Proof.Gen.KernelIdeal.Frame
import proofs.«416888_j54065048322491_3_alg».proof.Proof.Ops

noncomputable section

namespace Cert.KernelIdeal.Block

open Cert.KernelIdeal Cert.KernelIdeal.Gen Idealize.ShloMosaic Idealize.ShloMosaic.ValueIdx Cert.Attn

/-- The score of key row `s` of the batch row whose blocks the body holds. -/
def ksc (x0 : S1x1x1024.Idx → EReal) (x1 : S1x2048x1024.Idx → EReal) (x2 : S1024x1024.Idx → EReal)
    (x3 x4 : S1x1024.Idx → EReal) (x5 : S1x1.Idx → EReal) (s : Fin 2048) : EReal :=
  (∑ o : Fin 1024, Ideal.tanh (x0 (ix3 (0 : Fin 1) (0 : Fin 1) o)
      + ((∑ h : Fin 1024, x1 (ix3 (0 : Fin 1) s h) * x2 (ix2 h o)) + x3 (ix2 (0 : Fin 1) o))) * x4 (ix2 (0 : Fin 1) o))
    + x5 (ix2 (0 : Fin 1) (0 : Fin 1))

local notation "i00" => (ix2 (0 : Fin 1) (0 : Fin 1))

/-! ## One step of the walk, on vectors -/

/-- The running denominator after a chunk. -/
def stL (mOld lOld : FVec Ideal S1x1 .f32) (sRow : FVec Ideal S1x512 .f32) : FVec Ideal S1x1 .f32 :=
  addf (mulf (Ops.alpha mOld (Ops.newMax mOld sRow)) lOld) (Ops.rowSum (Ops.probs sRow (Ops.newMax mOld sRow)))

/-- The running numerator row after a chunk. -/
def stC (mOld : FVec Ideal S1x1 .f32) (aOld : FVec Ideal S1x1024 .f32) (sRow : FVec Ideal S1x512 .f32)
    (Kc : FVec Ideal S512x1024 .f32) : FVec Ideal S1x1024 .f32 :=
  addf (mulf (broadcastTo S1x1024 (Ops.alpha mOld (Ops.newMax mOld sRow)) broadcasts_S1x1_S1x1024) aOld)
    (Ops.wsum (Ops.probs sRow (Ops.newMax mOld sRow)) Kc)

theorem alpha_newMax (mOld : FVec Ideal S1x1 .f32) (sRow : FVec Ideal S1x512 .f32) :
    Ops.alpha mOld (Ops.newMax mOld sRow) i00 = stepA (mOld i00) (fun j => sRow (ix2 (0 : Fin 1) j)) := by
  rw [Ops.alpha_apply, Ops.newMax_apply]; rfl

theorem probs_newMax (mOld : FVec Ideal S1x1 .f32) (sRow : FVec Ideal S1x512 .f32) (j : Fin 512) :
    Ops.probs sRow (Ops.newMax mOld sRow) (ix2 (0 : Fin 1) j) = stepP (mOld i00) (fun j => sRow (ix2 (0 : Fin 1) j)) j := by
  rw [Ops.probs_apply, Ops.newMax_apply]; rfl

theorem stL_apply (mOld lOld : FVec Ideal S1x1 .f32) (sRow : FVec Ideal S1x512 .f32) :
    stL mOld lOld sRow i00 = stepL (mOld i00) (lOld i00) (fun j => sRow (ix2 (0 : Fin 1) j)) := by
  unfold stL stepL
  rw [addf_apply, mulf_apply, alpha_newMax, Ops.rowSum_apply]
  congr 1
  exact Finset.sum_congr rfl fun j _ => probs_newMax mOld sRow j

theorem stC_apply (mOld : FVec Ideal S1x1 .f32) (aOld : FVec Ideal S1x1024 .f32) (sRow : FVec Ideal S1x512 .f32)
    (Kc : FVec Ideal S512x1024 .f32) (h : Fin 1024) :
    stC mOld aOld sRow Kc (ix2 (0 : Fin 1) h)
      = stepC (mOld i00) (aOld (ix2 (0 : Fin 1) h)) (fun j => sRow (ix2 (0 : Fin 1) j)) (fun j => Kc (ix2 j h)) := by
  unfold stC stepC
  rw [addf_apply, mulf_apply, Ops.bcast_1x1_1x1024, alpha_newMax, Ops.wsum_apply]
  congr 1
  exact Finset.sum_congr rfl fun j _ => congrArg (fun t : EReal => t * Kc (ix2 j h)) (probs_newMax mOld sRow j)

/-! ## The payloads as steps -/

theorem pay1_eq (v102 : FVec Ideal S1x1 .f32) (v135 : FVec Ideal S1x512 .f32) :
    k0_pay1 v102 v135 = Ops.newMax v102 v135 := rfl

theorem pay4_eq (v102 v111 : FVec Ideal S1x1 .f32) (v135 : FVec Ideal S1x512 .f32) :
    k0_pay4 v102 v111 v135 = stL v102 v111 v135 := rfl

theorem pay15_eq (v0 : Vec Ideal S1x1x1024 .f32) (v2 v4 : Vec Ideal S1x1024 .f32) (v5 : Vec Ideal S1x1 .f32)
    (v7 : Vec Ideal S1024x1024 .bf16) (v12 : Vec Ideal S1x512x1024 .f32) :
    k0_pay15 v0 v2 v4 v5 v7 v12 = Ops.newMax (k0_pay11 (F := Ideal)) (k0_pay14 v0 v2 v4 v5 v7 v12) := rfl

theorem pay22_eq (v1 v3 : FVec Ideal S1x1024 .f32) (v4 : Vec Ideal S1x1024 .f32) (v6 : FVec Ideal S1x1 .f32)
    (v8 : FVec Ideal S1024x1024 .bf16) (v30 : FVec Ideal S1x1 .f32) (v48 : Vec Ideal S1x512x1024 .f32) :
    k0_pay22 v1 v3 v4 v6 v8 v30 v48 = Ops.newMax v30 (k0_pay21 v1 v3 v4 v6 v8 v48) := rfl

theorem pay29_eq (v1 v3 : FVec Ideal S1x1024 .f32) (v4 : Vec Ideal S1x1024 .f32) (v6 : FVec Ideal S1x1 .f32)
    (v8 : FVec Ideal S1024x1024 .bf16) (v66 : FVec Ideal S1x1 .f32) (v85 : FVec Ideal S512x1024 .f32) :
    k0_pay29 v1 v3 v4 v6 v8 v66 v85 = Ops.newMax v66 (k0_pay28 v1 v3 v4 v6 v8 v85) := rfl

/-- The zero 1×1 splat the denominator starts from. -/
def zero11 : FVec Ideal S1x1 .f32 := broadcast S1x1 (Scalar.ofBits (F := Ideal) .f32 0x00000000#32)

theorem pay25_eq (v0 : Vec Ideal S1x1x1024 .f32) (v2 v4 : Vec Ideal S1x1024 .f32) (v5 : Vec Ideal S1x1 .f32)
    (v7 : Vec Ideal S1024x1024 .bf16) (v12 : Vec Ideal S1x512x1024 .f32)
    (v1 v3 : FVec Ideal S1x1024 .f32) (v6 : FVec Ideal S1x1 .f32)
    (v8 : FVec Ideal S1024x1024 .bf16) (v48 : Vec Ideal S1x512x1024 .f32) :
    k0_pay25 v1 v3 v4 v6 v8 (k0_pay15 v0 v2 v4 v5 v7 v12) (k0_pay18 v0 v2 v4 v5 v7 v12) (k0_pay19 v0 v2 v4 v5 v7 v12) v48
      = stL (k0_pay15 v0 v2 v4 v5 v7 v12) (stL (k0_pay11 (F := Ideal)) zero11 (k0_pay14 v0 v2 v4 v5 v7 v12)) (k0_pay21 v1 v3 v4 v6 v8 v48) := rfl

theorem pay32_eq (v1 v3 : FVec Ideal S1x1024 .f32) (v4 : Vec Ideal S1x1024 .f32) (v6 : FVec Ideal S1x1 .f32)
    (v8 : FVec Ideal S1024x1024 .bf16) (v66 v75 : FVec Ideal S1x1 .f32) (v85 : FVec Ideal S512x1024 .f32) :
    k0_pay32 v1 v3 v4 v6 v8 v66 v75 v85 = stL v66 v75 (k0_pay28 v1 v3 v4 v6 v8 v85) := rfl

theorem pay26_eq (v0 : Vec Ideal S1x1x1024 .f32) (v2 v4 : Vec Ideal S1x1024 .f32) (v5 : Vec Ideal S1x1 .f32)
    (v7 : Vec Ideal S1024x1024 .bf16) (v12 : Vec Ideal S1x512x1024 .f32)
    (v1 v3 : FVec Ideal S1x1024 .f32) (v6 : FVec Ideal S1x1 .f32)
    (v8 : FVec Ideal S1024x1024 .bf16) (v48 : Vec Ideal S1x512x1024 .f32) :
    k0_pay26 v1 v3 v4 v6 v8 (k0_pay12 (F := Ideal)) (k0_pay13 v12) (k0_pay15 v0 v2 v4 v5 v7 v12) (k0_pay16 v0 v2 v4 v5 v7 v12)
        (k0_pay17 v0 v2 v4 v5 v7 v12) v48
      = stC (k0_pay15 v0 v2 v4 v5 v7 v12)
          (stC (k0_pay11 (F := Ideal)) (k0_pay12 (F := Ideal)) (k0_pay14 v0 v2 v4 v5 v7 v12) (k0_pay13 v12))
          (k0_pay21 v1 v3 v4 v6 v8 v48) (k0_pay20 v48) := rfl

theorem pay33_eq (v1 v3 : FVec Ideal S1x1024 .f32) (v4 : Vec Ideal S1x1024 .f32) (v6 : FVec Ideal S1x1 .f32)
    (v8 : FVec Ideal S1024x1024 .bf16) (v66 : FVec Ideal S1x1 .f32) (v83 : FVec Ideal S1x1024 .f32) (v85 : FVec Ideal S512x1024 .f32) :
    k0_pay33 v1 v3 v4 v6 v8 v66 v83 v85 = stC v66 v83 (k0_pay28 v1 v3 v4 v6 v8 v85) v85 := rfl

theorem pay6_eq (v102 v111 : FVec Ideal S1x1 .f32) (v119 : FVec Ideal S1x1024 .f32) (v121 : FVec Ideal S512x1024 .f32)
    (v135 : FVec Ideal S1x512 .f32) :
    k0_pay6 v102 v111 v119 v121 v135
      = shapeCast S1x1x1024 (divf (stC v102 v119 v135 v121) (broadcastTo S1x1024 (stL v102 v111 v135) broadcasts_S1x1_S1x1024))
          shapeCasts_S1x1024_S1x1x1024 := rfl

theorem pay5_eq (v27 v63 v99 : FVec Ideal S1x512 .f32) (v102 v111 : FVec Ideal S1x1 .f32) (v135 : FVec Ideal S1x512 .f32) :
    k0_pay5 v27 v63 v99 v102 v111 v135
      = shapeCast S1x1x2048
          (divf (exp (subf (concatenate S1x2048 1 [⟨S1x512, v27⟩, ⟨S1x512, v63⟩, ⟨S1x512, v99⟩, ⟨S1x512, v135⟩]
              concatenates_S1x512_S1x512_S1x512_S1x512_S1x2048_d1) (broadcastTo S1x2048 (Ops.newMax v102 v135) broadcasts_S1x1_S1x2048)))
            (broadcastTo S1x2048 (stL v102 v111 v135) broadcasts_S1x1_S1x2048))
          shapeCasts_S1x2048_S1x1x2048 := rfl

/-! ## The loads and the score rows -/

theorem hz3 : (![0, 0, 0] : Fin 3 → Nat) = fun _ => 0 := by funext a; fin_cases a <;> rfl
theorem hz2 : (![0, 0] : Fin 2 → Nat) = fun _ => 0 := by funext a; fin_cases a <;> rfl

theorem ld_r0_4 (x1 : Vec Ideal S1x2048x1024 .f32) (j : Fin 512) (h : Fin 1024) :
    View.ld x1 r0_4 (ix3 (0 : Fin 1) j h) = x1 (ix3 (0 : Fin 1) (row 0 j) h) := by
  refine congrArg x1 (funext fun a => Fin.ext ?_)
  match a with
  | ⟨0, _⟩ => rfl
  | ⟨1, _⟩ => show 0 + 1 * j.val = 512 * 0 + j.val; omega
  | ⟨2, _⟩ => show 0 + 1 * h.val = h.val; omega

theorem ld_r0_5 (x1 : Vec Ideal S1x2048x1024 .f32) (j : Fin 512) (h : Fin 1024) :
    View.ld x1 r0_5 (ix3 (0 : Fin 1) j h) = x1 (ix3 (0 : Fin 1) (row 1 j) h) := by
  refine congrArg x1 (funext fun a => Fin.ext ?_)
  match a with
  | ⟨0, _⟩ => rfl
  | ⟨1, _⟩ => show 512 + 1 * j.val = 512 * 1 + j.val; omega
  | ⟨2, _⟩ => show 0 + 1 * h.val = h.val; omega

theorem ld_r0_6 (x1 : Vec Ideal S1x2048x1024 .f32) (j : Fin 512) (h : Fin 1024) :
    View.ld x1 r0_6 (ix3 (0 : Fin 1) j h) = x1 (ix3 (0 : Fin 1) (row 2 j) h) := by
  refine congrArg x1 (funext fun a => Fin.ext ?_)
  match a with
  | ⟨0, _⟩ => rfl
  | ⟨1, _⟩ => show 1024 + 1 * j.val = 512 * 2 + j.val; omega
  | ⟨2, _⟩ => show 0 + 1 * h.val = h.val; omega

theorem ld_r0_7 (x1 : Vec Ideal S1x2048x1024 .f32) (j : Fin 512) (h : Fin 1024) :
    View.ld x1 r0_7 (ix3 (0 : Fin 1) j h) = x1 (ix3 (0 : Fin 1) (row 3 j) h) := by
  refine congrArg x1 (funext fun a => Fin.ext ?_)
  match a with
  | ⟨0, _⟩ => rfl
  | ⟨1, _⟩ => show 1536 + 1 * j.val = 512 * 3 + j.val; omega
  | ⟨2, _⟩ => show 0 + 1 * h.val = h.val; omega

theorem pay7_apply (v0 : Vec Ideal S1x1x1024 .f32) (o : Fin 1024) :
    k0_pay7 v0 (ix2 (0 : Fin 1) o) = v0 (ix3 (0 : Fin 1) (0 : Fin 1) o) := Ops.cast_1x1x1024 v0 o
theorem pay8_eq (v2 : Vec Ideal S1x1024 .f32) : k0_pay8 v2 = v2 := shapeCast_self v2 _
theorem pay9_eq (v5 : Vec Ideal S1x1 .f32) : k0_pay9 v5 = v5 := shapeCast_self v5 _
theorem pay10_eq (v7 : Vec Ideal S1024x1024 .bf16) : k0_pay10 v7 = v7 := shapeCast_self v7 _
theorem pay13_apply (v12 : Vec Ideal S1x512x1024 .f32) (j : Fin 512) (h : Fin 1024) :
    k0_pay13 v12 (ix2 j h) = v12 (ix3 (0 : Fin 1) j h) := Ops.cast_1x512x1024 v12 j h
theorem pay20_apply (v12 : Vec Ideal S1x512x1024 .f32) (j : Fin 512) (h : Fin 1024) :
    k0_pay20 v12 (ix2 j h) = v12 (ix3 (0 : Fin 1) j h) := Ops.cast_1x512x1024 v12 j h
theorem pay27_apply (v12 : Vec Ideal S1x512x1024 .f32) (j : Fin 512) (h : Fin 1024) :
    k0_pay27 v12 (ix2 j h) = v12 (ix3 (0 : Fin 1) j h) := Ops.cast_1x512x1024 v12 j h
theorem pay34_apply (v12 : Vec Ideal S1x512x1024 .f32) (j : Fin 512) (h : Fin 1024) :
    k0_pay34 v12 (ix2 j h) = v12 (ix3 (0 : Fin 1) j h) := Ops.cast_1x512x1024 v12 j h

theorem pay14_eq (v0 : Vec Ideal S1x1x1024 .f32) (v2 v4 : Vec Ideal S1x1024 .f32) (v5 : Vec Ideal S1x1 .f32)
    (v7 : Vec Ideal S1024x1024 .bf16) (v12 : Vec Ideal S1x512x1024 .f32) :
    k0_pay14 v0 v2 v4 v5 v7 v12 = Ops.scoreRow (k0_pay7 v0) (k0_pay8 v2) v4 (k0_pay9 v5) (k0_pay10 v7) (k0_pay13 v12) := rfl
theorem pay21_eq (v1 v3 : FVec Ideal S1x1024 .f32) (v4 : Vec Ideal S1x1024 .f32) (v6 : FVec Ideal S1x1 .f32)
    (v8 : FVec Ideal S1024x1024 .bf16) (v48 : Vec Ideal S1x512x1024 .f32) :
    k0_pay21 v1 v3 v4 v6 v8 v48 = Ops.scoreRow v1 v3 v4 v6 v8 (k0_pay20 v48) := rfl
theorem pay28_eq (v1 v3 : FVec Ideal S1x1024 .f32) (v4 : Vec Ideal S1x1024 .f32) (v6 : FVec Ideal S1x1 .f32)
    (v8 : FVec Ideal S1024x1024 .bf16) (v85 : FVec Ideal S512x1024 .f32) :
    k0_pay28 v1 v3 v4 v6 v8 v85 = Ops.scoreRow v1 v3 v4 v6 v8 v85 := rfl
theorem pay35_eq (v1 v3 : FVec Ideal S1x1024 .f32) (v4 : Vec Ideal S1x1024 .f32) (v6 : FVec Ideal S1x1 .f32)
    (v8 : FVec Ideal S1024x1024 .bf16) (v120 : Vec Ideal S1x512x1024 .f32) :
    k0_pay35 v1 v3 v4 v6 v8 v120 = Ops.scoreRow v1 v3 v4 v6 v8 (k0_pay34 v120) := rfl

/-- A chunk's score row from the body's casts of the loaded blocks, at row `j`. -/
theorem score_apply (v0 : Vec Ideal S1x1x1024 .f32) (v2 v4 : Vec Ideal S1x1024 .f32) (v5 : Vec Ideal S1x1 .f32)
    (v7 : Vec Ideal S1024x1024 .bf16) (Kc : FVec Ideal S512x1024 .f32) (j : Fin 512) :
    Ops.scoreRow (k0_pay7 v0) (k0_pay8 v2) v4 (k0_pay9 v5) (k0_pay10 v7) Kc (ix2 (0 : Fin 1) j)
      = (∑ o : Fin 1024, Ideal.tanh (v0 (ix3 (0 : Fin 1) (0 : Fin 1) o)
          + ((∑ h : Fin 1024, Kc (ix2 j h) * v7 (ix2 h o)) + v2 (ix2 (0 : Fin 1) o))) * v4 (ix2 (0 : Fin 1) o))
        + v5 i00 := by
  rw [Ops.scoreRow_apply, pay8_eq, pay9_eq, pay10_eq]
  simp only [pay7_apply]

theorem pay11_apply : k0_pay11 (F := Ideal) i00 = (⊥ : EReal) := by
  show Ideal.ofBits .f32 0xFF800000#32 = ⊥
  simp [Ideal.ofBits, Ideal.ieee]
theorem zero11_apply : zero11 i00 = (0 : EReal) := Ideal.ofBits_zero_f32
theorem pay12_apply (h : Fin 1024) : k0_pay12 (F := Ideal) (ix2 (0 : Fin 1) h) = (0 : EReal) := Ideal.ofBits_zero_f32

/-- The score formula over a chunk's key rows is the score of the chunk's rows. -/
theorem ksc_of (x0 : Vec Ideal S1x1x1024 .f32) (x1 : Vec Ideal S1x2048x1024 .f32) (x2 : Vec Ideal S1024x1024 .bf16)
    (x3 x4 : Vec Ideal S1x1024 .f32) (x5 : Vec Ideal S1x1 .f32) (Kc : FVec Ideal S512x1024 .f32) (c : Fin 4) (j : Fin 512)
    (hK : ∀ h : Fin 1024, Kc (ix2 j h) = x1 (ix3 (0 : Fin 1) (row c j) h)) :
    (∑ o : Fin 1024, Ideal.tanh (x0 (ix3 (0 : Fin 1) (0 : Fin 1) o)
          + ((∑ h : Fin 1024, Kc (ix2 j h) * x2 (ix2 h o)) + x3 (ix2 (0 : Fin 1) o))) * x4 (ix2 (0 : Fin 1) o))
        + x5 i00 = ksc x0 x1 x2 x3 x4 x5 (row c j) := by
  have e : (fun h : Fin 1024 => Kc (ix2 j h)) = fun h => x1 (ix3 (0 : Fin 1) (row c j) h) := funext hK
  show (∑ o : Fin 1024, Ideal.tanh (x0 (ix3 (0 : Fin 1) (0 : Fin 1) o)
          + ((∑ h : Fin 1024, (fun h : Fin 1024 => Kc (ix2 j h)) h * x2 (ix2 h o)) + x3 (ix2 (0 : Fin 1) o))) * x4 (ix2 (0 : Fin 1) o))
        + x5 i00 = _
  rw [e]
  rfl

/-! ## The body's values on six input blocks -/

section Body

variable (x0 : Vec Ideal S1x1x1024 .f32) (x1 : Vec Ideal S1x2048x1024 .f32) (x2 : Vec Ideal S1024x1024 .bf16)
  (x3 x4 : Vec Ideal S1x1024 .f32) (x5 : Vec Ideal S1x1 .f32)

local notation "sc" => ksc x0 x1 x2 x3 x4 x5
local notation "bQ" => k0_pay7 (View.ld x0 r0_0)
local notation "bUb" => k0_pay8 (View.ld x3 r0_1)
local notation "bVa" => View.ld x4 r0_1
local notation "bVb" => k0_pay9 (View.ld x5 r0_2)
local notation "bU" => k0_pay10 (View.ld x2 r0_3)
local notation "bS0" => k0_pay14 (View.ld x0 r0_0) (View.ld x3 r0_1) (View.ld x4 r0_1) (View.ld x5 r0_2) (View.ld x2 r0_3) (View.ld x1 r0_4)
local notation "bS1" => k0_pay21 bQ bUb bVa bVb bU (View.ld x1 r0_5)
local notation "bK2" => k0_pay27 (View.ld x1 r0_6)
local notation "bS2" => k0_pay28 bQ bUb bVa bVb bU bK2
local notation "bS3" => k0_pay35 bQ bUb bVa bVb bU (View.ld x1 r0_7)
local notation "bM1" => k0_pay15 (View.ld x0 r0_0) (View.ld x3 r0_1) (View.ld x4 r0_1) (View.ld x5 r0_2) (View.ld x2 r0_3) (View.ld x1 r0_4)
local notation "bM2" => k0_pay22 bQ bUb bVa bVb bU bM1 (View.ld x1 r0_5)
local notation "bM3" => k0_pay29 bQ bUb bVa bVb bU bM2 bK2
local notation "bL2" => k0_pay25 bQ bUb bVa bVb bU bM1
  (k0_pay18 (View.ld x0 r0_0) (View.ld x3 r0_1) (View.ld x4 r0_1) (View.ld x5 r0_2) (View.ld x2 r0_3) (View.ld x1 r0_4))
  (k0_pay19 (View.ld x0 r0_0) (View.ld x3 r0_1) (View.ld x4 r0_1) (View.ld x5 r0_2) (View.ld x2 r0_3) (View.ld x1 r0_4))
  (View.ld x1 r0_5)
local notation "bL3" => k0_pay32 bQ bUb bVa bVb bU bM2 bL2 bK2
local notation "bA2" => k0_pay26 bQ bUb bVa bVb bU (k0_pay12 (F := Ideal)) (k0_pay13 (View.ld x1 r0_4)) bM1
  (k0_pay16 (View.ld x0 r0_0) (View.ld x3 r0_1) (View.ld x4 r0_1) (View.ld x5 r0_2) (View.ld x2 r0_3) (View.ld x1 r0_4))
  (k0_pay17 (View.ld x0 r0_0) (View.ld x3 r0_1) (View.ld x4 r0_1) (View.ld x5 r0_2) (View.ld x2 r0_3) (View.ld x1 r0_4))
  (View.ld x1 r0_5)
local notation "bA3" => k0_pay33 bQ bUb bVa bVb bU bM2 bA2 bK2

/-- The two output blocks over these names. -/
theorem out0_7_eq : out0_7 x0 x1 x2 x3 x4 x5 = k0_pay5 bS0 bS1 bS2 bM3 bL3 bS3 :=
  View.canon_unit_zero hz3 _ _

theorem out0_6_eq : out0_6 x0 x1 x2 x3 x4 x5 = k0_pay6 bM3 bL3 bA3 (k0_pay34 (View.ld x1 r0_7)) bS3 :=
  View.canon_unit_zero hz3 _ _

theorem ld0 : View.ld x0 r0_0 = x0 := View.ld_unit_zero (S := S1x1x1024) hz3 _ x0
theorem ld3 : View.ld x3 r0_1 = x3 := View.ld_unit_zero (S := S1x1024) hz2 _ x3
theorem ld4 : View.ld x4 r0_1 = x4 := View.ld_unit_zero (S := S1x1024) hz2 _ x4
theorem ld5 : View.ld x5 r0_2 = x5 := View.ld_unit_zero (S := S1x1) hz2 _ x5
theorem ld2 : View.ld x2 r0_3 = x2 := View.ld_unit_zero (S := S1024x1024) hz2 _ x2

/-! ### The four score rows are the four chunks of the scores -/

theorem S0_apply (j : Fin 512) : bS0 (ix2 (0 : Fin 1) j) = sc (row 0 j) := by
  rw [pay14_eq, score_apply, ld0, ld3, ld4, ld5, ld2]
  exact ksc_of x0 x1 x2 x3 x4 x5 _ 0 j fun h => (pay13_apply _ j h).trans (ld_r0_4 x1 j h)

theorem S1_apply (j : Fin 512) : bS1 (ix2 (0 : Fin 1) j) = sc (row 1 j) := by
  rw [pay21_eq, score_apply, ld0, ld3, ld4, ld5, ld2]
  exact ksc_of x0 x1 x2 x3 x4 x5 _ 1 j fun h => (pay20_apply _ j h).trans (ld_r0_5 x1 j h)

theorem S2_apply (j : Fin 512) : bS2 (ix2 (0 : Fin 1) j) = sc (row 2 j) := by
  rw [pay28_eq, score_apply, ld0, ld3, ld4, ld5, ld2]
  exact ksc_of x0 x1 x2 x3 x4 x5 _ 2 j fun h => (pay27_apply _ j h).trans (ld_r0_6 x1 j h)

theorem S3_apply (j : Fin 512) : bS3 (ix2 (0 : Fin 1) j) = sc (row 3 j) := by
  rw [pay35_eq, score_apply, ld0, ld3, ld4, ld5, ld2]
  exact ksc_of x0 x1 x2 x3 x4 x5 _ 3 j fun h => (pay34_apply _ j h).trans (ld_r0_7 x1 j h)

theorem S0_fun : (fun j : Fin 512 => bS0 (ix2 (0 : Fin 1) j)) = ch sc 0 := funext (S0_apply x0 x1 x2 x3 x4 x5)
theorem S1_fun : (fun j : Fin 512 => bS1 (ix2 (0 : Fin 1) j)) = ch sc 1 := funext (S1_apply x0 x1 x2 x3 x4 x5)
theorem S2_fun : (fun j : Fin 512 => bS2 (ix2 (0 : Fin 1) j)) = ch sc 2 := funext (S2_apply x0 x1 x2 x3 x4 x5)
theorem S3_fun : (fun j : Fin 512 => bS3 (ix2 (0 : Fin 1) j)) = ch sc 3 := funext (S3_apply x0 x1 x2 x3 x4 x5)

/-! ### The four key chunks are the four chunks of a key column -/

theorem K0_fun (h : Fin 1024) :
    (fun j : Fin 512 => k0_pay13 (View.ld x1 r0_4) (ix2 j h)) = ch (fun s => x1 (ix3 (0 : Fin 1) s h)) 0 :=
  funext fun j => by rw [pay13_apply, ld_r0_4]; rfl
theorem K1_fun (h : Fin 1024) :
    (fun j : Fin 512 => k0_pay20 (View.ld x1 r0_5) (ix2 j h)) = ch (fun s => x1 (ix3 (0 : Fin 1) s h)) 1 :=
  funext fun j => by rw [pay20_apply, ld_r0_5]; rfl
theorem K2_fun (h : Fin 1024) :
    (fun j : Fin 512 => bK2 (ix2 j h)) = ch (fun s => x1 (ix3 (0 : Fin 1) s h)) 2 :=
  funext fun j => by rw [pay27_apply, ld_r0_6]; rfl
theorem K3_fun (h : Fin 1024) :
    (fun j : Fin 512 => k0_pay34 (View.ld x1 r0_7) (ix2 j h)) = ch (fun s => x1 (ix3 (0 : Fin 1) s h)) 3 :=
  funext fun j => by rw [pay34_apply, ld_r0_7]; rfl

/-! ### The state after each chunk -/

theorem M1_apply : bM1 i00 = m1 sc := by
  rw [pay15_eq, Ops.newMax_apply, pay11_apply, S0_fun]; rfl

theorem L1_apply : stL (k0_pay11 (F := Ideal)) zero11 bS0 i00 = l1 sc := by
  rw [stL_apply, pay11_apply, zero11_apply, S0_fun]; rfl

theorem A1_apply (h : Fin 1024) :
    stC (k0_pay11 (F := Ideal)) (k0_pay12 (F := Ideal)) bS0 (k0_pay13 (View.ld x1 r0_4)) (ix2 (0 : Fin 1) h)
      = a1 sc (fun s => x1 (ix3 (0 : Fin 1) s h)) := by
  rw [stC_apply, pay11_apply, pay12_apply, S0_fun, K0_fun]; rfl

theorem M2_apply : bM2 i00 = m2 sc := by
  rw [pay22_eq, Ops.newMax_apply, M1_apply, S1_fun]; rfl

theorem L2_apply : bL2 i00 = l2 sc := by
  rw [pay25_eq, stL_apply, M1_apply, L1_apply, S1_fun]; rfl

theorem A2_apply (h : Fin 1024) : bA2 (ix2 (0 : Fin 1) h) = a2 sc (fun s => x1 (ix3 (0 : Fin 1) s h)) := by
  rw [pay26_eq, stC_apply, M1_apply, A1_apply, S1_fun, K1_fun]; rfl

theorem M3_apply : bM3 i00 = m3 sc := by
  rw [pay29_eq, Ops.newMax_apply, M2_apply, S2_fun]; rfl

theorem L3_apply : bL3 i00 = l3 sc := by
  rw [pay32_eq, stL_apply, M2_apply, L2_apply, S2_fun]; rfl

theorem A3_apply (h : Fin 1024) : bA3 (ix2 (0 : Fin 1) h) = a3 sc (fun s => x1 (ix3 (0 : Fin 1) s h)) := by
  rw [pay33_eq, stC_apply, M2_apply, A2_apply, S2_fun, K2_fun]; rfl

end Body

/-- Every row is a row of one of the four chunks. -/
theorem row_surj (s : Fin 2048) : ∃ (c : Fin 4) (j : Fin 512), s = row c j :=
  ⟨⟨s.val / 512, by have := s.isLt; omega⟩, ⟨s.val % 512, Nat.mod_lt _ (by norm_num)⟩,
    Fin.ext (by show s.val = 512 * (s.val / 512) + s.val % 512; omega)⟩

theorem exp_apply {s : Shape} {φ : FTy} (a : FVec Ideal s φ) (i : s.Idx) : exp a i = Ideal.exp (a i) := rfl

/-- The weights block at row `s`: the kernel's weight of the row's scores. -/
theorem out0_7_apply (x0 : Vec Ideal S1x1x1024 .f32) (x1 : Vec Ideal S1x2048x1024 .f32) (x2 : Vec Ideal S1024x1024 .bf16)
    (x3 x4 : Vec Ideal S1x1024 .f32) (x5 : Vec Ideal S1x1 .f32) (s : Fin 2048) :
    out0_7 x0 x1 x2 x3 x4 x5 (ix3 (0 : Fin 1) (0 : Fin 1) s) = kW (ksc x0 x1 x2 x3 x4 x5) s := by
  obtain ⟨c, j, rfl⟩ := row_surj s
  rw [out0_7_eq, pay5_eq, Ops.cast_1x2048_up, divf_apply, Ops.bcast_1x1_1x2048, stL_apply, exp_apply, subf_apply,
    Ops.concat4_apply, Ops.bcast_1x1_1x2048, Ops.newMax_apply, M3_apply, L3_apply, S3_fun]
  match c with
  | ⟨0, _⟩ =>
    refine (congrArg (fun t : EReal => Ideal.div (Ideal.exp (t - m4 (ksc x0 x1 x2 x3 x4 x5))) (l4 (ksc x0 x1 x2 x3 x4 x5)))
      (S0_apply x0 x1 x2 x3 x4 x5 j)).trans ?_
    rfl
  | ⟨1, _⟩ =>
    refine (congrArg (fun t : EReal => Ideal.div (Ideal.exp (t - m4 (ksc x0 x1 x2 x3 x4 x5))) (l4 (ksc x0 x1 x2 x3 x4 x5)))
      (S1_apply x0 x1 x2 x3 x4 x5 j)).trans ?_
    rfl
  | ⟨2, _⟩ =>
    refine (congrArg (fun t : EReal => Ideal.div (Ideal.exp (t - m4 (ksc x0 x1 x2 x3 x4 x5))) (l4 (ksc x0 x1 x2 x3 x4 x5)))
      (S2_apply x0 x1 x2 x3 x4 x5 j)).trans ?_
    rfl
  | ⟨3, _⟩ =>
    refine (congrArg (fun t : EReal => Ideal.div (Ideal.exp (t - m4 (ksc x0 x1 x2 x3 x4 x5))) (l4 (ksc x0 x1 x2 x3 x4 x5)))
      (S3_apply x0 x1 x2 x3 x4 x5 j)).trans ?_
    rfl

/-- The context block at lane `h`: the kernel's context lane of the scores and column `h` of the key rows. -/
theorem out0_6_apply (x0 : Vec Ideal S1x1x1024 .f32) (x1 : Vec Ideal S1x2048x1024 .f32) (x2 : Vec Ideal S1024x1024 .bf16)
    (x3 x4 : Vec Ideal S1x1024 .f32) (x5 : Vec Ideal S1x1 .f32) (h : Fin 1024) :
    out0_6 x0 x1 x2 x3 x4 x5 (ix3 (0 : Fin 1) (0 : Fin 1) h)
      = kC (ksc x0 x1 x2 x3 x4 x5) (fun s => x1 (ix3 (0 : Fin 1) s h)) := by
  rw [out0_6_eq, pay6_eq, Ops.cast_1x1024_up, divf_apply, Ops.bcast_1x1_1x1024, stC_apply, stL_apply, M3_apply, L3_apply,
    A3_apply, S3_fun, K3_fun]
  rfl

end Cert.KernelIdeal.Block

end
-- ==== Proof.KernelArray.lean ====
/-
  From blocks to arrays: after the run, the weights array and the context array as whole-array functions of the arrays
  the region finds.

  Grid point `b` (one of 32) stages batch row `b`: block `b` of the query projection (32×1×1024), block `b` of the keys
  (32×2048×1024), and the whole of the four small operands; it writes back block `b` of each result.  The 32 blocks of a
  result tile it, so the result array is, at batch row `b`, what point `b` wrote: the kernel's weights `kW` and context
  lanes `kC` of the scores `gsc … b` of that batch row.
-/
import proofs.«416888_j54065048322491_3_alg».proof.Proof.ValueBlocks
import proofs.«416888_j54065048322491_3_alg».proof.Proof.KernelBlock

noncomputable section

namespace Cert.KernelIdeal.Arr

open Cert.KernelIdeal Cert.KernelIdeal.Gen Idealize.ShloMosaic Idealize.ShloMosaic.TcCoe Idealize.ShloMosaic.ValueIdx Idealize.SL.Sem Cert.Attn
open Idealize.ShloMosaic.Pipeline (Dat)

/-- The score of key row `s` of batch row `b`, from the arrays the region finds: `A10` the query projection, `A1` the keys,
    `Au` the transposed key weights, `Aub` the key bias row, `Ava` the score weights' row, `Avb` the score bias. -/
def gsc (A10 : S32x1x1024.Idx → EReal) (A1 : S32x2048x1024.Idx → EReal) (Au : S1024x1024.Idx → EReal)
    (Aub Ava : S1x1024.Idx → EReal) (Avb : S1x1.Idx → EReal) (b : Fin 32) (s : Fin 2048) : EReal :=
  (∑ o : Fin 1024, Ideal.tanh (A10 (ix3 b (0 : Fin 1) o)
      + ((∑ h : Fin 1024, A1 (ix3 b s h) * Au (ix2 h o)) + Aub (ix2 (0 : Fin 1) o))) * Ava (ix2 (0 : Fin 1) o))
    + Avb (ix2 (0 : Fin 1) (0 : Fin 1))

/-- The weights array: at `(b, 0, s)` the kernel's weight of row `s` of batch row `b`. -/
def G7 (A10 : S32x1x1024.Idx → EReal) (A1 : S32x2048x1024.Idx → EReal) (Au : S1024x1024.Idx → EReal)
    (Aub Ava : S1x1024.Idx → EReal) (Avb : S1x1.Idx → EReal) : S32x1x2048.Idx → EReal :=
  fun i => kW (gsc A10 A1 Au Aub Ava Avb ⟨(i 0).val, (i 0).isLt⟩) ⟨(i 2).val, (i 2).isLt⟩

/-- The context array: at `(b, 0, h)` the kernel's context lane `h` of batch row `b`. -/
def G6 (A10 : S32x1x1024.Idx → EReal) (A1 : S32x2048x1024.Idx → EReal) (Au : S1024x1024.Idx → EReal)
    (Aub Ava : S1x1024.Idx → EReal) (Avb : S1x1.Idx → EReal) : S32x1x1024.Idx → EReal :=
  fun i => kC (gsc A10 A1 Au Aub Ava Avb ⟨(i 0).val, (i 0).isLt⟩)
    (fun s => A1 (ix3 (⟨(i 0).val, (i 0).isLt⟩ : Fin 32) s (⟨(i 2).val, (i 2).isLt⟩ : Fin 1024)))

variable (m : (ℓ : Loc nD τ sig) → Buf (Elt Ideal) ℓ)

/-- The printed index maps, decided over the grid: point `t` stages block `t` of the query projection and of the keys and
    writes back block `t` of each result; the four small operands are staged whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- A grid point is a batch row. -/
theorem lt32 (t : Fin cfg0.N) : t.val < 32 := t.isLt

/-- The batch row of grid point `t`. -/
abbrev brow (t : Fin cfg0.N) : Fin 32 := ⟨t.val, lt32 t⟩

/-! ## The input blocks at a point, read at an index -/

/-- Point `t`'s block of the query projection is its row `t`. -/
theorem iblk0_apply (c : Dev nD) (t : Fin cfg0.N) (o : Fin 1024) :
    (iblk m c 0 t : Vec Ideal S1x1x1024 .f32) (ix3 (0 : Fin 1) (0 : Fin 1) o)
      = (V m c main_v10 : S32x1x1024.Idx → EReal) (ix3 (brow t) (0 : Fin 1) o) := by
  obtain ⟨e0, e1, e2, -⟩ := idx_facts t
  show V m c main_v10 (((cfg0.win 0).blk t).view.emb (ix3 (0 : Fin 1) (0 : Fin 1) o : S1x1x1024.Idx)) = _
  refine congrArg (V m c main_v10 : S32x1x1024.Idx → EReal) ?_
  funext a; apply Fin.ext
  match a with
  | ⟨0, _⟩ => show win0_0.index t (0 : Fin 3) * 1 + 1 * (0 : Fin 1).val = t.val; rw [e0]; simp
  | ⟨1, _⟩ => show win0_0.index t (1 : Fin 3) * 1 + 1 * (0 : Fin 1).val = (0 : Fin 1).val; rw [e1]; simp
  | ⟨2, _⟩ => show win0_0.index t (2 : Fin 3) * 1024 + 1 * o.val = o.val; rw [e2]; omega

/-- Point `t`'s block of the keys is the key rows of batch row `t`. -/
theorem iblk1_apply (c : Dev nD) (t : Fin cfg0.N) (s : Fin 2048) (h : Fin 1024) :
    (iblk m c 1 t : Vec Ideal S1x2048x1024 .f32) (ix3 (0 : Fin 1) s h)
      = (V m c main_arg1 : S32x2048x1024.Idx → EReal) (ix3 (brow t) s h) := by
  obtain ⟨-, -, -, e0, e1, e2, -⟩ := idx_facts t
  show V m c main_arg1 (((cfg0.win 1).blk t).view.emb (ix3 (0 : Fin 1) s h : S1x2048x1024.Idx)) = _
  refine congrArg (V m c main_arg1 : S32x2048x1024.Idx → EReal) ?_
  funext a; apply Fin.ext
  match a with
  | ⟨0, _⟩ => show win0_1.index t (0 : Fin 3) * 1 + 1 * (0 : Fin 1).val = t.val; rw [e0]; simp
  | ⟨1, _⟩ => show win0_1.index t (1 : Fin 3) * 2048 + 1 * s.val = s.val; rw [e1]; omega
  | ⟨2, _⟩ => show win0_1.index t (2 : Fin 3) * 1024 + 1 * h.val = h.val; rw [e2]; omega

/-- The transposed key weights are staged whole. -/
theorem iblk2_eq (c : Dev nD) (t : Fin cfg0.N) :
    (iblk m c 2 t : Vec Ideal S1024x1024 .bf16) = (V m c main_v1 : S1024x1024.Idx → EReal) := by
  obtain ⟨-, -, -, -, -, -, e0, e1, -⟩ := idx_facts t
  funext y
  show V m c main_v1 (((cfg0.win 2).blk t).view.emb y) = _
  refine congrArg (V m c main_v1 : S1024x1024.Idx → EReal) ?_
  funext a; apply Fin.ext
  match a with
  | ⟨0, _⟩ => show win0_2.index t (0 : Fin 2) * 1024 + 1 * (y 0).val = (y 0).val; rw [e0]; omega
  | ⟨1, _⟩ => show win0_2.index t (1 : Fin 2) * 1024 + 1 * (y 1).val = (y 1).val; rw [e1]; omega

/-- The key bias row is staged whole. -/
theorem iblk3_eq (c : Dev nD) (t : Fin cfg0.N) :
    (iblk m c 3 t : Vec Ideal S1x1024 .f32) = (V m c main_v2 : S1x1024.Idx → EReal) := by
  obtain ⟨-, -, -, -, -, -, -, -, e0, e1, -⟩ := idx_facts t
  funext y
  show V m c main_v2 (((cfg0.win 3).blk t).view.emb y) = _
  refine congrArg (V m c main_v2 : S1x1024.Idx → EReal) ?_
  funext a; apply Fin.ext
  match a with
  | ⟨0, _⟩ => show win0_3.index t (0 : Fin 2) * 1 + 1 * (y 0).val = (y 0).val; rw [e0]; omega
  | ⟨1, _⟩ => show win0_3.index t (1 : Fin 2) * 1024 + 1 * (y 1).val = (y 1).val; rw [e1]; omega

/-- The score weights' row is staged whole. -/
theorem iblk4_eq (c : Dev nD) (t : Fin cfg0.N) :
    (iblk m c 4 t : Vec Ideal S1x1024 .f32) = (V m c main_arg6 : S1x1024.Idx → EReal) := by
  obtain ⟨-, -, -, -, -, -, -, -, -, -, e0, e1, -⟩ := idx_facts t
  funext y
  show V m c main_arg6 (((cfg0.win 4).blk t).view.emb y) = _
  refine congrArg (V m c main_arg6 : S1x1024.Idx → EReal) ?_
  funext a; apply Fin.ext
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

/-- The score bias is staged whole. -/
theorem iblk5_eq (c : Dev nD) (t : Fin cfg0.N) :
    (iblk m c 5 t : Vec Ideal S1x1 .f32) = (V m c main_v3 : S1x1.Idx → EReal) := by
  obtain ⟨-, -, -, -, -, -, -, -, -, -, -, -, e0, e1, -⟩ := idx_facts t
  funext y
  show V m c main_v3 (((cfg0.win 5).blk t).view.emb y) = _
  refine congrArg (V m c main_v3 : S1x1.Idx → EReal) ?_
  funext a; apply Fin.ext
  match a with
  | ⟨0, _⟩ => show win0_5.index t (0 : Fin 2) * 1 + 1 * (y 0).val = (y 0).val; rw [e0]; omega
  | ⟨1, _⟩ => show win0_5.index t (1 : Fin 2) * 1 + 1 * (y 1).val = (y 1).val; rw [e1]; omega

/-! ## The scores of a batch row, from the blocks and from the arrays -/

/-- Blocks that are batch row `b` of the arrays score as the arrays do at `b`. -/
theorem ksc_eq_gsc (x0 : S1x1x1024.Idx → EReal) (x1 : S1x2048x1024.Idx → EReal) (x2 : S1024x1024.Idx → EReal)
    (x3 x4 : S1x1024.Idx → EReal) (x5 : S1x1.Idx → EReal)
    (A10 : S32x1x1024.Idx → EReal) (A1 : S32x2048x1024.Idx → EReal) (Au : S1024x1024.Idx → EReal)
    (Aub Ava : S1x1024.Idx → EReal) (Avb : S1x1.Idx → EReal) (b : Fin 32)
    (h0 : ∀ o : Fin 1024, x0 (ix3 (0 : Fin 1) (0 : Fin 1) o) = A10 (ix3 b (0 : Fin 1) o))
    (h1 : ∀ (s : Fin 2048) (h : Fin 1024), x1 (ix3 (0 : Fin 1) s h) = A1 (ix3 b s h))
    (h2 : x2 = Au) (h3 : x3 = Aub) (h4 : x4 = Ava) (h5 : x5 = Avb) :
    Block.ksc x0 x1 x2 x3 x4 x5 = gsc A10 A1 Au Aub Ava Avb b := by
  subst h2 h3 h4 h5
  funext s
  unfold Block.ksc gsc
  simp only [h0, h1]

/-- The scores the body computes at point `t` are the arrays' scores of batch row `t`. -/
theorem ksc_iblk (c : Dev nD) (t : Fin cfg0.N) :
    Block.ksc (iblk m c 0 t) (iblk m c 1 t) (iblk m c 2 t) (iblk m c 3 t) (iblk m c 4 t) (iblk m c 5 t)
      = gsc (V m c main_v10) (V m c main_arg1) (V m c main_v1) (V m c main_v2) (V m c main_arg6) (V m c main_v3) (brow t) :=
  ksc_eq_gsc _ _ _ _ _ _ _ _ _ _ _ _ (brow t) (iblk0_apply m c t) (iblk1_apply m c t) (iblk2_eq m c t) (iblk3_eq m c t)
    (iblk4_eq m c t) (iblk5_eq m c t)

/-! ## What a point writes back is its block of the whole-array function -/

/-- A weights block whose row `s` is `G` at `(t, 0, s)` is point `t`'s block of `G`. -/
theorem cut_read7 (t : Fin cfg0.N) (X : Vec Ideal S1x1x2048 .f32) (G : S32x1x2048.Idx → EReal)
    (h : ∀ s : Fin 2048, X (ix3 (0 : Fin 1) (0 : Fin 1) s) = G (ix3 (brow t) (0 : Fin 1) s)) :
    (cfg0.win 7).cut (grid0.coords t) X = ((cfg0.win 7).blk t).view.read (Elt Ideal) G := by
  obtain ⟨-, -, -, -, -, -, -, -, -, -, -, -, -, -, -, -, -, e0, e1, e2⟩ := idx_facts t
  have key : ∀ y : S1x1x2048.Idx, X y = G (((cfg0.win 7).blk t).view.emb y) := by
    intro y
    obtain ⟨a, b, s, rfl⟩ : ∃ (a : Fin 1) (b : Fin 1) (s : Fin 2048), y = ix3 a b s := ⟨_, _, _, eq_ix3 y⟩
    obtain rfl : a = 0 := Subsingleton.elim _ _
    obtain rfl : b = 0 := Subsingleton.elim _ _
    refine (h s).trans (congrArg G ?_)
    funext d; apply Fin.ext
    match d with
    | ⟨0, _⟩ => show t.val = win0_7.index t (0 : Fin 3) * 1 + 1 * (0 : Fin 1).val; rw [e0]; simp
    | ⟨1, _⟩ => show (0 : Fin 1).val = win0_7.index t (1 : Fin 3) * 1 + 1 * (0 : Fin 1).val; rw [e1]; simp
    | ⟨2, _⟩ => show s.val = win0_7.index t (2 : Fin 3) * 2048 + 1 * s.val; rw [e2]; omega
  funext y
  exact key y

/-- WHAT POINT `t` WRITES BACK to the weights is block `t` of `G7` of the arrays the region finds. -/
theorem flushed7_eq (c : Dev nD) (t : Fin cfg0.N) :
    (dats m 0 c).flushed 7 t = ((cfg0.win 7).blk t).view.read (Elt Ideal)
      (G7 (V m c main_v10) (V m c main_arg1) (V m c main_v1) (V m c main_v2) (V m c main_arg6) (V m c main_v3)) := by
  rw [ValueP.flushed7]
  refine cut_read7 t _ _ fun s => ?_
  refine (Block.out0_7_apply _ _ _ _ _ _ s).trans ?_
  rw [ksc_iblk m c t]
  rfl

/-- A context block whose lane `h` is `G` at `(t, 0, h)` is point `t`'s block of `G`. -/
theorem cut_read6 (t : Fin cfg0.N) (X : Vec Ideal S1x1x1024 .f32) (G : S32x1x1024.Idx → EReal)
    (h : ∀ l : Fin 1024, X (ix3 (0 : Fin 1) (0 : Fin 1) l) = G (ix3 (brow t) (0 : Fin 1) l)) :
    (cfg0.win 6).cut (grid0.coords t) X = ((cfg0.win 6).blk t).view.read (Elt Ideal) G := by
  obtain ⟨-, -, -, -, -, -, -, -, -, -, -, -, -, -, e0, e1, e2, -⟩ := idx_facts t
  have key : ∀ y : S1x1x1024.Idx, X y = G (((cfg0.win 6).blk t).view.emb y) := by
    intro y
    obtain ⟨a, b, l, rfl⟩ : ∃ (a : Fin 1) (b : Fin 1) (l : Fin 1024), y = ix3 a b l := ⟨_, _, _, eq_ix3 y⟩
    obtain rfl : a = 0 := Subsingleton.elim _ _
    obtain rfl : b = 0 := Subsingleton.elim _ _
    refine (h l).trans (congrArg G ?_)
    funext d; apply Fin.ext
    match d with
    | ⟨0, _⟩ => show t.val = win0_6.index t (0 : Fin 3) * 1 + 1 * (0 : Fin 1).val; rw [e0]; simp
    | ⟨1, _⟩ => show (0 : Fin 1).val = win0_6.index t (1 : Fin 3) * 1 + 1 * (0 : Fin 1).val; rw [e1]; simp
    | ⟨2, _⟩ => show l.val = win0_6.index t (2 : Fin 3) * 1024 + 1 * l.val; rw [e2]; omega
  funext y
  exact key y

/-- WHAT POINT `t` WRITES BACK to the context is block `t` of `G6` of the arrays the region finds. -/
theorem flushed6_eq (c : Dev nD) (t : Fin cfg0.N) :
    (dats m 0 c).flushed 6 t = ((cfg0.win 6).blk t).view.read (Elt Ideal)
      (G6 (V m c main_v10) (V m c main_arg1) (V m c main_v1) (V m c main_v2) (V m c main_arg6) (V m c main_v3)) := by
  rw [ValueP.flushed6]
  refine cut_read6 t _ _ fun l => ?_
  refine (Block.out0_6_apply _ _ _ _ _ _ l).trans ?_
  rw [ksc_iblk m c t]
  exact congrArg (kC _) (funext fun s => iblk1_apply m c t s l)

/-! ## The result blocks tile the result arrays -/

/-- An index of the weights array is in point `t`'s block iff each coordinate is in the block's range on its axis. -/
theorem mem_blk7 (t : Fin cfg0.N) (i : S32x1x2048.Idx) :
    i ∈ ((cfg0.win 7).blk t).view.set ↔ ∀ a : Fin 3, win0_7.index t a * S1x1x2048.size a ≤ (i a).val ∧ (i a).val < win0_7.index t a * S1x1x2048.size a + S1x1x2048.size a := by
  show i ∈ ((View.whole main_v11_1).slice (win0_7.rect t)).set ↔ _
  rw [View.set_slice_whole, Rect.mem_set_unit]
  exact Iff.rfl

/-- An index of the context array is in point `t`'s block iff each coordinate is in the block's range on its axis. -/
theorem mem_blk6 (t : Fin cfg0.N) (i : S32x1x1024.Idx) :
    i ∈ ((cfg0.win 6).blk t).view.set ↔ ∀ a : Fin 3, win0_6.index t a * S1x1x1024.size a ≤ (i a).val ∧ (i a).val < win0_6.index t a * S1x1x1024.size a + S1x1x1024.size a := by
  show i ∈ ((View.whole main_v11_0).slice (win0_6.rect t)).set ↔ _
  rw [View.set_slice_whole, Rect.mem_set_unit]
  exact Iff.rfl

/-- Batch row `b` of the weights array is in point `b`'s block. -/
theorem cover7 (i : S32x1x2048.Idx) :
    ∃ t : Fin cfg0.N, (cfg0.win 7).flush t = true ∧ i ∈ ((cfg0.win 7).blk t).view.set := by
  have hi0 : (i 0).val < 32 := (i 0).isLt
  have hi1 : (i 1).val < 1 := (i 1).isLt
  have hi2 : (i 2).val < 2048 := (i 2).isLt
  obtain ⟨t, ht⟩ : ∃ t : Fin cfg0.N, t.val = (i 0).val := ⟨⟨(i 0).val, hi0⟩, rfl⟩
  obtain ⟨-, -, -, -, -, -, -, -, -, -, -, -, -, -, -, -, -, e0, e1, e2⟩ := idx_facts t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1 ≤ (i 1).val ∧ (i 1).val < win0_7.index t (1 : Fin 3) * 1 + 1; omega
  | ⟨2, _⟩ => show win0_7.index t (2 : Fin 3) * 2048 ≤ (i 2).val ∧ (i 2).val < win0_7.index t (2 : Fin 3) * 2048 + 2048; omega

/-- Batch row `b` of the context array is in point `b`'s block. -/
theorem cover6 (i : S32x1x1024.Idx) :
    ∃ t : Fin cfg0.N, (cfg0.win 6).flush t = true ∧ i ∈ ((cfg0.win 6).blk t).view.set := by
  have hi0 : (i 0).val < 32 := (i 0).isLt
  have hi1 : (i 1).val < 1 := (i 1).isLt
  have hi2 : (i 2).val < 1024 := (i 2).isLt
  obtain ⟨t, ht⟩ : ∃ t : Fin cfg0.N, t.val = (i 0).val := ⟨⟨(i 0).val, hi0⟩, rfl⟩
  obtain ⟨-, -, -, -, -, -, -, -, -, -, -, -, -, -, e0, e1, e2, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 1024 ≤ (i 2).val ∧ (i 2).val < win0_6.index t (2 : Fin 3) * 1024 + 1024; omega

/-- After the run the weights array is `G7` of the arrays the region found. -/
theorem final7 (c : Dev nD) :
    (dats m 0 c).arrAt 7 cfg0.N
      = G7 (V m c main_v10) (V m c main_arg1) (V m c main_v1) (V m c main_v2) (V m c main_arg6) (V m c main_v3) :=
  (dats m 0 c).arrAt_eq_of_cover 7 _ (fun t _ => flushed7_eq m c t) cover7

/-- After the run the context array is `G6` of the arrays the region found. -/
theorem final6 (c : Dev nD) :
    (dats m 0 c).arrAt 6 cfg0.N
      = G6 (V m c main_v10) (V m c main_arg1) (V m c main_v1) (V m c main_v2) (V m c main_arg6) (V m c main_v3) :=
  (dats m 0 c).arrAt_eq_of_cover 6 _ (fun t _ => flushed6_eq m c t) cover6

end Cert.KernelIdeal.Arr

end
-- ==== Proof.HostPrefix.lean ====
/-
  The four operands the host computes before the region, read at an index.

  Before the pallas_call the program projects the query, `qp(b,0,o) = ∑ₕ query(b,0,h)·Wa(o,h) + Wa_b(o)` (a reshape, a
  transpose of `Wa`, a 32×1024 by 1024×1024 product, a broadcast bias, a reshape back), transposes the key weights
  (`U(h,o) = Ua(o,h)`; the change of format that follows is the identity at the ideal values), and reshapes the key bias
  to a 1×1024 row and the score bias to 1×1.
-/
import proofs.«416888_j54065048322491_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostPre

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The arguments and the four computed operands as arrays of extended reals (the names the lemmas below are stated over). -/
abbrev arg0 (c : Dev nD) : S32x1x1024.Idx → EReal := m ((c : Thread nD τ).loc main_arg0)
abbrev arg2 (c : Dev nD) : S1024x1024.Idx → EReal := m ((c : Thread nD τ).loc main_arg2)
abbrev arg3 (c : Dev nD) : S1024.Idx → EReal := m ((c : Thread nD τ).loc main_arg3)
abbrev arg4 (c : Dev nD) : S1024x1024.Idx → EReal := m ((c : Thread nD τ).loc main_arg4)
abbrev arg5 (c : Dev nD) : S1024.Idx → EReal := m ((c : Thread nD τ).loc main_arg5)
abbrev arg7 (c : Dev nD) : S1.Idx → EReal := m ((c : Thread nD τ).loc main_arg7)
abbrev qp (c : Dev nD) : S32x1x1024.Idx → EReal := V m c main_v10
abbrev uT (c : Dev nD) : S1024x1024.Idx → EReal := V m c main_v1
abbrev ubRow (c : Dev nD) : S1x1024.Idx → EReal := V m c main_v2
abbrev vb11 (c : Dev nD) : S1x1.Idx → EReal := V m c main_v3

/-! ## The layout operations and the product at an index, over arbitrary arrays -/

section Pure

variable {α : Type}

/-- A vector of 1024 recast as a 1×1024 row: position `o` on both sides. -/
theorem castRow_apply (x : S1024.Idx → α) (o : Fin 1024) :
    shapeCast S1x1024 x shapeCasts_S1024_S1x1024 (ix2 (0 : Fin 1) o) = x (ix1 o) := by
  refine shapeCast_apply _ _ _ _ ?_
  rw [Shape.rowMajor_val_two, Shape.rowMajor_val_one]
  simp

/-- A single element recast as 1×1. -/
theorem castOne_apply (x : S1.Idx → α) :
    shapeCast S1x1 x shapeCasts_S1_S1x1 (ix2 (0 : Fin 1) (0 : Fin 1)) = x (ix1 (0 : Fin 1)) := by
  refine shapeCast_apply _ _ _ _ ?_
  rw [Shape.rowMajor_val_two, Shape.rowMajor_val_one]
  simp

/-- Dropping the middle unit axis: `(b, h)` and `(b, 0, h)` are both at row-major position `b·1024 + h`. -/
theorem castDrop_apply (x : S32x1x1024.Idx → α) (b : Fin 32) (h : Fin 1024) :
    shapeCast S32x1024 x shapeCasts_S32x1x1024_S32x1024 (ix2 b h) = x (ix3 b (0 : Fin 1) h) := by
  refine shapeCast_apply _ _ _ _ ?_
  rw [Shape.rowMajor_val_two, Shape.rowMajor_val_three]
  show (b.val * 1 + 0) * 1024 + h.val = b.val * 1024 + h.val
  omega

/-- Putting the middle unit axis back. -/
theorem castAdd_apply (x : S32x1024.Idx → α) (b : Fin 32) (o : Fin 1024) :
    shapeCast S32x1x1024 x shapeCasts_S32x1024_S32x1x1024 (ix3 b (0 : Fin 1) o) = x (ix2 b o) := by
  refine shapeCast_apply _ _ _ _ ?_
  rw [Shape.rowMajor_val_two, Shape.rowMajor_val_three]
  show b.val * 1024 + o.val = (b.val * 1 + 0) * 1024 + o.val
  omega

/-- The row broadcast down the 32 rows. -/
theorem bcastRow_apply (x : S1x1024.Idx → α) (b : Fin 32) (o : Fin 1024) :
    broadcastInDim S32x1024 ![0, 1] bcast_S1x1024_S32x1024_0_1 x (ix2 b o) = x (ix2 (0 : Fin 1) o) :=
  broadcastInDim_apply _ bcast_S1x1024_S32x1024_0_1 x (ix2 b o) (ix2 (0 : Fin 1) o) (fun a => match a with
    | ⟨0, _⟩ => by show (0 : Nat) = if (1 : Nat) = 1 then 0 else b.val; rw [if_pos rfl]
    | ⟨1, _⟩ => by show o.val = if (1024 : Nat) = 1 then 0 else o.val; rw [if_neg (by decide)])

end Pure

/-! ## The 32×1024 by 1024×1024 product: its operands' indices, axis by axis -/

theorem lhs_dot_0 (i : S32x1024.Idx) (q : Cert.KernelIdeal.dot_S32x1024_S1024x1024_S32x1024_1_0_0_1_n_n.contr.Idx) :
    (Cert.KernelIdeal.dot_S32x1024_S1024x1024_S32x1024_1_0_0_1_n_n.lhsIdx i q 0).val = (i 0).val := by
  unfold DotDims.lhsIdx
  rw [dif_neg (show ¬(0 : Fin S32x1024.rank) ∈ Cert.KernelIdeal.dot_S32x1024_S1024x1024_S32x1024_1_0_0_1_n_n.lhsBatch by decide), dif_pos (show (0 : Fin S32x1024.rank) ∈ Cert.KernelIdeal.dot_S32x1024_S1024x1024_S32x1024_1_0_0_1_n_n.lhsNonContracting by decide)]
  rfl
theorem lhs_dot_1 (i : S32x1024.Idx) (q : Cert.KernelIdeal.dot_S32x1024_S1024x1024_S32x1024_1_0_0_1_n_n.contr.Idx) :
    (Cert.KernelIdeal.dot_S32x1024_S1024x1024_S32x1024_1_0_0_1_n_n.lhsIdx i q 1).val = (q ⟨0, by decide⟩).val :=
  Cert.KernelIdeal.dot_S32x1024_S1024x1024_S32x1024_1_0_0_1_n_n.lhsIdx_val_of_single rfl i q
theorem rhs_dot_0 (i : S32x1024.Idx) (q : Cert.KernelIdeal.dot_S32x1024_S1024x1024_S32x1024_1_0_0_1_n_n.contr.Idx) :
    (Cert.KernelIdeal.dot_S32x1024_S1024x1024_S32x1024_1_0_0_1_n_n.rhsIdx i q 0).val = (q ⟨0, by decide⟩).val :=
  Cert.KernelIdeal.dot_S32x1024_S1024x1024_S32x1024_1_0_0_1_n_n.rhsIdx_val_of_single rfl i q
theorem rhs_dot_1 (i : S32x1024.Idx) (q : Cert.KernelIdeal.dot_S32x1024_S1024x1024_S32x1024_1_0_0_1_n_n.contr.Idx) :
    (Cert.KernelIdeal.dot_S32x1024_S1024x1024_S32x1024_1_0_0_1_n_n.rhsIdx i q 1).val = (i 1).val := by
  unfold DotDims.rhsIdx
  rw [dif_neg (show ¬(1 : Fin S1024x1024.rank) ∈ Cert.KernelIdeal.dot_S32x1024_S1024x1024_S32x1024_1_0_0_1_n_n.rhsBatch by decide), dif_pos (show (1 : Fin S1024x1024.rank) ∈ Cert.KernelIdeal.dot_S32x1024_S1024x1024_S32x1024_1_0_0_1_n_n.rhsNonContracting by decide)]
  rfl

/-- The host's product at `(b, o)`: the sum over the contracted axis. -/
theorem hostDot_apply (l : FVec Ideal S32x1024 .f32) (r : FVec Ideal S1024x1024 .f32)
    (b : Fin 32) (o : Fin 1024) :
    Host.dotGeneral (F := Ideal) Cert.KernelIdeal.dot_S32x1024_S1024x1024_S32x1024_1_0_0_1_n_n none l r (ix2 b o)
      = ∑ h : Fin 1024, l (ix2 b h) * r (ix2 h o) := by
  simp only [Host.dotGeneral]
  rw [Ideal.dotGeneral_apply, ← Equiv.sum_comp (ValueIdx.contrEquiv1 Cert.KernelIdeal.dot_S32x1024_S1024x1024_S32x1024_1_0_0_1_n_n 1024 rfl rfl).symm]
  refine Finset.sum_congr rfl fun k _ => ?_
  have hk := ValueIdx.contrEquiv1_symm_val Cert.KernelIdeal.dot_S32x1024_S1024x1024_S32x1024_1_0_0_1_n_n 1024 rfl rfl k
  have el : Cert.KernelIdeal.dot_S32x1024_S1024x1024_S32x1024_1_0_0_1_n_n.lhsIdx (ix2 b o) ((ValueIdx.contrEquiv1 Cert.KernelIdeal.dot_S32x1024_S1024x1024_S32x1024_1_0_0_1_n_n 1024 rfl rfl).symm k) = ix2 b k := funext fun a => Fin.ext (by
    match a with
    | ⟨0, _⟩ => exact lhs_dot_0 _ _
    | ⟨1, _⟩ => exact (lhs_dot_1 _ _).trans hk)
  have er : Cert.KernelIdeal.dot_S32x1024_S1024x1024_S32x1024_1_0_0_1_n_n.rhsIdx (ix2 b o) ((ValueIdx.contrEquiv1 Cert.KernelIdeal.dot_S32x1024_S1024x1024_S32x1024_1_0_0_1_n_n 1024 rfl rfl).symm k) = ix2 k o := funext fun a => Fin.ext (by
    match a with
    | ⟨0, _⟩ => exact (rhs_dot_0 _ _).trans hk
    | ⟨1, _⟩ => exact rhs_dot_1 _ _)
  rw [el, er]

/-- The query projection at `(b, 0, o)`. -/
theorem V_v10_apply (c : Dev nD) (b : Fin 32) (o : Fin 1024) :
    qp m c (ix3 b (0 : Fin 1) o)
      = (∑ h : Fin 1024, arg0 m c (ix3 b (0 : Fin 1) h) * arg2 m c (ix2 o h)) + arg3 m c (ix1 o) := by
  have e : (V m c main_v10 : S32x1x1024.Idx → EReal)
      = shapeCast S32x1x1024
          (addf
            (Host.dotGeneral (F := Ideal) Cert.KernelIdeal.dot_S32x1024_S1024x1024_S32x1024_1_0_0_1_n_n none
              (shapeCast S32x1024 (arg0 m c) shapeCasts_S32x1x1024_S32x1024 : FVec Ideal S32x1024 .f32)
              (transpose S1024x1024 [1, 0] (arg2 m c) transposes_S1024x1024_S1024x1024_1_0 : FVec Ideal S1024x1024 .f32))
            (broadcastInDim S32x1024 ![0, 1] bcast_S1x1024_S32x1024_0_1
              (shapeCast S1x1024 (arg3 m c) shapeCasts_S1024_S1x1024) : FVec Ideal S32x1024 .f32))
          shapeCasts_S32x1024_S32x1x1024 := by
    dsimp only [Gen.V, Gen.hostOps0]; after_results; rfl
  show (V m c main_v10 : S32x1x1024.Idx → EReal) (ix3 b (0 : Fin 1) o) = _
  rw [e, castAdd_apply, addf_apply, hostDot_apply, bcastRow_apply, castRow_apply]
  refine congrArg (· + arg3 m c (ix1 o)) (Finset.sum_congr rfl fun h _ => ?_)
  rw [castDrop_apply, transpose_ix2_apply]

/-- The transposed key weights at `(h, o)`. -/
theorem V_v1_apply (c : Dev nD) (h o : Fin 1024) : uT m c (ix2 h o) = arg4 m c (ix2 o h) := by
  have e : (V m c main_v1 : S1024x1024.Idx → EReal)
      = (truncf .bf16 (transpose S1024x1024 [1, 0] (arg4 m c) transposes_S1024x1024_S1024x1024_1_0 : FVec Ideal S1024x1024 .f32)
          bitsLt_bf16_f32 : FVec Ideal S1024x1024 .bf16) := by
    dsimp only [Gen.V, Gen.hostOps0]; after_results
  show (V m c main_v1 : S1024x1024.Idx → EReal) (ix2 h o) = _
  rw [e]
  refine (truncf_apply _ bitsLt_bf16_f32 (ix2 h o)).trans ?_
  exact transpose_ix2_apply (arg4 m c) transposes_S1024x1024_S1024x1024_1_0 h o

/-- The key bias row at `(0, o)`. -/
theorem V_v2_apply (c : Dev nD) (o : Fin 1024) : ubRow m c (ix2 (0 : Fin 1) o) = arg5 m c (ix1 o) := by
  have e : (V m c main_v2 : S1x1024.Idx → EReal) = shapeCast S1x1024 (arg5 m c) shapeCasts_S1024_S1x1024 := by
    dsimp only [Gen.V, Gen.hostOps0]; after_results; rfl
  show (V m c main_v2 : S1x1024.Idx → EReal) (ix2 (0 : Fin 1) o) = _
  rw [e]
  exact castRow_apply (arg5 m c) o

/-- The score bias at `(0, 0)`. -/
theorem V_v3_apply (c : Dev nD) : vb11 m c (ix2 (0 : Fin 1) (0 : Fin 1)) = arg7 m c (ix1 (0 : Fin 1)) := by
  have e : (V m c main_v3 : S1x1.Idx → EReal) = shapeCast S1x1 (arg7 m c) shapeCasts_S1_S1x1 := by
    dsimp only [Gen.V, Gen.hostOps0]; after_results; rfl
  show (V m c main_v3 : S1x1.Idx → EReal) (ix2 (0 : Fin 1) (0 : Fin 1)) = _
  rw [e]
  exact castOne_apply (arg7 m c)

end Cert.KernelIdeal.HostPre

end
-- ==== Proof.RefRead.lean ====
/-
  The reference's two results read at an index, as the softmax of Softmax.lean over one batch row's scores.

  The reference projects the query and the keys, `e(b,s,o) = tanh((∑ₕ query(b,0,h)·Wa(o,h) + Wa_b(o)) + (∑ₕ keys(b,s,h)·Ua(o,h) + Ua_b(o)))`,
  scores key row `s` of batch row `b` as `rsc … b s = ∑ₒ e(b,s,o)·Va(0,o) + Va_b(0)`, takes the softmax of each batch row's
  2048 scores (maximum, exponentials, their sum, the quotient) and contracts the weights with the keys.
-/
import proofs.«416888_j54065048322491_3_alg».proof.Proof.Gen.ReferenceIdeal.Read
import proofs.«416888_j54065048322491_3_alg».proof.Proof.Softmax
import Idealize.ShloMosaic.Lib.ValueIdx
import Idealize.ShloMosaic.PureOps.Ideal.Laws

noncomputable section

namespace Cert.ReferenceIdeal.RefRead

open Cert.ReferenceIdeal Cert.ReferenceIdeal.Gen Cert.ReferenceIdeal.Read Idealize.ShloMosaic Idealize.ShloMosaic.ValueIdx Cert.Attn

/-- The reference's score of key row `s` of batch row `b`, from the eight arguments. -/
def rsc (a0 : S32x1x1024.Idx → EReal) (a1 : S32x2048x1024.Idx → EReal) (a2 : S1024x1024.Idx → EReal) (a3 : S1024.Idx → EReal)
    (a4 : S1024x1024.Idx → EReal) (a5 : S1024.Idx → EReal) (a6 : S1x1024.Idx → EReal) (a7 : S1.Idx → EReal)
    (b : Fin 32) (s : Fin 2048) : EReal :=
  (∑ o : Fin 1024, Ideal.tanh (((∑ h : Fin 1024, a0 (ix3 b (0 : Fin 1) h) * a2 (ix2 o h)) + a3 (ix1 o))
      + ((∑ h : Fin 1024, a1 (ix3 b s h) * a4 (ix2 o h)) + a5 (ix1 o))) * a6 (ix2 (0 : Fin 1) o))
    + a7 (ix1 (0 : Fin 1))

/-! ## The stages at explicit coordinates

Each operand index of a stage, at coordinates `(b, 0, s)`, `(b, s, o)` or `(b, 0)`, is the index with the expected coordinates;
the stages then read, outermost first, as the score, the row's maximum, the exponentials, their sum and the quotient. -/

section Stages

variable (x0 : FVec Ideal S32x1x1024 .f32) (x1 : FVec Ideal S32x2048x1024 .f32) (x2 : FVec Ideal S1024x1024 .f32)
    (x3 : FVec Ideal S1024 .f32) (x4 : FVec Ideal S1024x1024 .f32) (x5 : FVec Ideal S1024 .f32) (x6 : FVec Ideal S1x1024 .f32)
    (x7 : FVec Ideal S1 .f32)

theorem idx16 (b : Fin 32) (s : Fin 2048) : idx_main_v16 (ix3 b (0 : Fin 1) s) = ix2 b s :=
  funext fun a => match a with | ⟨0, _⟩ => rfl | ⟨1, _⟩ => rfl

theorem idx15 (b : Fin 32) (s : Fin 2048) : idx_main_v15 (ix2 b s) = ix3 b s (0 : Fin 1) :=
  funext fun a => Fin.ext (by
    have hb := b.isLt
    have hs := s.isLt
    match a with
    | ⟨0, _⟩ => show (b.val * 2048 + s.val) / 2048 = b.val; omega
    | ⟨1, _⟩ => show (b.val * 2048 + s.val) / 1 % 2048 = s.val; omega
    | ⟨2, _⟩ => rfl)

theorem idx13 (b : Fin 32) (s : Fin 2048) : idx_main_v12 (idx_main_v13 (ix3 b s (0 : Fin 1))) = ix1 (0 : Fin 1) :=
  funext fun a => match a with | ⟨0, _⟩ => rfl

theorem lidx11 (b : Fin 32) (s : Fin 2048) (k : Fin 1024) : lidx_main_v11 (ix3 b s (0 : Fin 1)) k = ix3 b s k :=
  funext fun a => match a with | ⟨0, _⟩ => rfl | ⟨1, _⟩ => rfl | ⟨2, _⟩ => rfl

theorem ridx11 (b : Fin 32) (s : Fin 2048) (k : Fin 1024) : ridx_main_v11 (ix3 b s (0 : Fin 1)) k = ix2 (0 : Fin 1) k :=
  funext fun a => match a with | ⟨0, _⟩ => rfl | ⟨1, _⟩ => rfl

theorem lidx0 (b : Fin 32) (s : Fin 2048) (o k : Fin 1024) : lidx_main_v0 (idx_main_v8 (ix3 b s o)) k = ix3 b (0 : Fin 1) k :=
  funext fun a => match a with | ⟨0, _⟩ => rfl | ⟨1, _⟩ => rfl | ⟨2, _⟩ => rfl

theorem ridx0 (b : Fin 32) (s : Fin 2048) (o k : Fin 1024) : ridx_main_v0 (idx_main_v8 (ix3 b s o)) k = ix2 o k :=
  funext fun a => match a with | ⟨0, _⟩ => rfl | ⟨1, _⟩ => rfl

theorem idx1 (b : Fin 32) (s : Fin 2048) (o : Fin 1024) : idx_main_v1 (idx_main_v2 (idx_main_v8 (ix3 b s o))) = ix1 o :=
  funext fun a => match a with | ⟨0, _⟩ => rfl

theorem lidx4 (b : Fin 32) (s : Fin 2048) (o k : Fin 1024) : lidx_main_v4 (ix3 b s o) k = ix3 b s k :=
  funext fun a => match a with | ⟨0, _⟩ => rfl | ⟨1, _⟩ => rfl | ⟨2, _⟩ => rfl

theorem ridx4 (b : Fin 32) (s : Fin 2048) (o k : Fin 1024) : ridx_main_v4 (ix3 b s o) k = ix2 o k :=
  funext fun a => match a with | ⟨0, _⟩ => rfl | ⟨1, _⟩ => rfl

theorem idx5 (b : Fin 32) (s : Fin 2048) (o : Fin 1024) : idx_main_v5 (idx_main_v6 (ix3 b s o)) = ix1 o :=
  funext fun a => match a with | ⟨0, _⟩ => rfl

/-- The pre-activation at `(b, s, o)`. -/
theorem v9_ix (b : Fin 32) (s : Fin 2048) (o : Fin 1024) :
    val_main_v9 (F := Ideal) x0 x1 x2 x3 x4 x5 (ix3 b s o)
      = ((∑ h : Fin 1024, x0 (ix3 b (0 : Fin 1) h) * x2 (ix2 o h)) + x3 (ix1 o))
        + ((∑ h : Fin 1024, x1 (ix3 b s h) * x4 (ix2 o h)) + x5 (ix1 o)) := by
  rw [val_main_v9_apply, val_main_v8_apply, val_main_v3_apply, val_main_v0_apply, val_main_v2_apply, val_main_v1_apply,
    val_main_v7_apply, val_main_v4_apply, val_main_v6_apply, val_main_v5_apply, idx1, idx5]
  show (∑ k : Fin 1024, _) + _ + ((∑ k : Fin 1024, _) + _) = _
  refine congrArg₂ (· + ·) (congrArg (· + _) (Finset.sum_congr rfl fun k _ => ?_)) (congrArg (· + _) (Finset.sum_congr rfl fun k _ => ?_))
  · rw [lidx0, ridx0]
  · rw [lidx4, ridx4]

/-- The score at `(b, 0, s)`. -/
theorem v16_ix (b : Fin 32) (s : Fin 2048) :
    val_main_v16 (F := Ideal) x0 x1 x2 x3 x4 x5 x6 x7 (ix3 b (0 : Fin 1) s) = rsc x0 x1 x2 x3 x4 x5 x6 x7 b s := by
  rw [val_main_v16_apply, idx16, val_main_v15_apply, idx15, val_main_v14_apply, val_main_v11_apply, val_main_v13_apply,
    val_main_v12_apply, idx13]
  show (∑ k : Fin 1024, _) + _ = _
  unfold rsc
  refine congrArg (· + _) (Finset.sum_congr rfl fun k _ => ?_)
  rw [lidx11, ridx11, val_main_v10_apply, v9_ix]
  rfl

/-- The word of `−∞` reads `⊥`. -/
theorem ofBits_neg_inf : Ideal.ofBits .f32 0xFF800000#32 = ⊥ := by simp [Ideal.ofBits, Ideal.ieee]

theorem red17 : S32x1x2048.Reduces [2] S32x1 := by decide

/-- The index over `(b, 0)` with `k` on the reduced axis. -/
theorem lift17 (b : Fin 32) (k : Fin 2048) :
    red17.lift (ix2 b (0 : Fin 1)) k = ix3 b (0 : Fin 1) k :=
  funext fun a => Fin.ext (by match a with | ⟨0, _⟩ => rfl | ⟨1, _⟩ => rfl | ⟨2, _⟩ => rfl)

/-- A fold of the ideal maximum from a word of `−∞` is the fold of `max` from `⊥`. -/
theorem fold_maximumf_eq {n : Nat} (f g : Fin n → EReal) (c : EReal) (hc : c = ⊥) (h : ∀ k, f k = g k) :
    (Finset.univ : Finset (Fin n)).fold (FloatOps.maximumf (F := Ideal) (φ := .f32)) c f
      = (Finset.univ : Finset (Fin n)).fold max ⊥ g := by
  subst hc
  exact Finset.fold_congr fun k _ => h k

/-- The row's maximum from `−∞`, at `(b, 0)`. -/
theorem v17_ix (b : Fin 32) :
    val_main_v17 (F := Ideal) x0 x1 x2 x3 x4 x5 x6 x7 (ix2 b (0 : Fin 1))
      = (Finset.univ : Finset (Fin 2048)).fold max ⊥ (rsc x0 x1 x2 x3 x4 x5 x6 x7 b) := by
  unfold val_main_v17
  refine (Host.reduce_eq_fold_single FloatOps.maximumf _ _ reducesTo_S32x1x2048_S32x1_d2 red17 h_S_ _).trans ?_
  exact fold_maximumf_eq (n := 2048) _ _ _ ofBits_neg_inf (fun k => (congrArg _ (lift17 b k)).trans (v16_ix x0 x1 x2 x3 x4 x5 x6 x7 b k))

/-- The reference's maximum at `(b, 0)`: the maximum of `−∞` and the row's. -/
theorem v19_ix (b : Fin 32) :
    val_main_v19 (F := Ideal) x0 x1 x2 x3 x4 x5 x6 x7 (ix2 b (0 : Fin 1)) = rM (rsc x0 x1 x2 x3 x4 x5 x6 x7 b) := by
  rw [val_main_v19_apply, val_main_v18_apply, val_main_cst_0_apply, v17_ix]
  show max (Ideal.ofBits .f32 0xFF800000#32) _ = _
  rw [ofBits_neg_inf]
  rfl

theorem idx20 (b : Fin 32) (s : Fin 2048) : idx_main_v20 (idx_main_v21 (ix3 b (0 : Fin 1) s)) = ix2 b (0 : Fin 1) :=
  funext fun a => match a with | ⟨0, _⟩ => rfl | ⟨1, _⟩ => rfl

/-- The exponential at `(b, 0, s)`. -/
theorem v23_ix (b : Fin 32) (s : Fin 2048) :
    val_main_v23 (F := Ideal) x0 x1 x2 x3 x4 x5 x6 x7 (ix3 b (0 : Fin 1) s) = rE (rsc x0 x1 x2 x3 x4 x5 x6 x7 b) s := by
  rw [val_main_v23_apply, val_main_v22_apply, v16_ix, val_main_v21_apply, val_main_v20_apply, idx20, v19_ix]
  rfl

theorem idx24 (b : Fin 32) (k : Fin 2048) : idx_main_v24 (ix2 b (0 : Fin 1)) k = ix3 b (0 : Fin 1) k :=
  funext fun a => match a with | ⟨0, _⟩ => rfl | ⟨1, _⟩ => rfl | ⟨2, _⟩ => rfl

/-- The denominator at `(b, 0)`. -/
theorem v24_ix (b : Fin 32) :
    val_main_v24 (F := Ideal) x0 x1 x2 x3 x4 x5 x6 x7 (ix2 b (0 : Fin 1)) = rL (rsc x0 x1 x2 x3 x4 x5 x6 x7 b) := by
  rw [val_main_v24_apply, val_main_cst_1_apply]
  show Ideal.ofBits .f32 0x00000000#32 + _ = _
  rw [Ideal.ofBits_zero_f32]
  unfold rL
  refine congrArg (0 + ·) (Finset.sum_congr rfl fun k _ => ?_)
  rw [idx24, v23_ix]

theorem idx25 (b : Fin 32) (s : Fin 2048) : idx_main_v25 (idx_main_v26 (ix3 b (0 : Fin 1) s)) = ix2 b (0 : Fin 1) :=
  funext fun a => match a with | ⟨0, _⟩ => rfl | ⟨1, _⟩ => rfl

theorem lidx28 (b : Fin 32) (h : Fin 1024) (k : Fin 2048) : lidx_main_v28 (ix3 b (0 : Fin 1) h) k = ix3 b (0 : Fin 1) k :=
  funext fun a => match a with | ⟨0, _⟩ => rfl | ⟨1, _⟩ => rfl | ⟨2, _⟩ => rfl

theorem ridx28 (b : Fin 32) (h : Fin 1024) (k : Fin 2048) : ridx_main_v28 (ix3 b (0 : Fin 1) h) k = ix3 b k h :=
  funext fun a => match a with | ⟨0, _⟩ => rfl | ⟨1, _⟩ => rfl | ⟨2, _⟩ => rfl

end Stages

/-- The reference's weights at `(b, 0, s)`. -/
theorem v27_apply (x0 : FVec Ideal S32x1x1024 .f32) (x1 : FVec Ideal S32x2048x1024 .f32) (x2 : FVec Ideal S1024x1024 .f32)
    (x3 : FVec Ideal S1024 .f32) (x4 : FVec Ideal S1024x1024 .f32) (x5 : FVec Ideal S1024 .f32) (x6 : FVec Ideal S1x1024 .f32)
    (x7 : FVec Ideal S1 .f32) (b : Fin 32) (s : Fin 2048) :
    val_main_v27 (F := Ideal) x0 x1 x2 x3 x4 x5 x6 x7 (ix3 b (0 : Fin 1) s) = rW (rsc x0 x1 x2 x3 x4 x5 x6 x7 b) s := by
  rw [val_main_v27_apply, v23_ix, val_main_v26_apply, val_main_v25_apply, idx25, v24_ix]
  rfl

/-- The reference's context at `(b, 0, h)`. -/
theorem v28_apply (x0 : FVec Ideal S32x1x1024 .f32) (x1 : FVec Ideal S32x2048x1024 .f32) (x2 : FVec Ideal S1024x1024 .f32)
    (x3 : FVec Ideal S1024 .f32) (x4 : FVec Ideal S1024x1024 .f32) (x5 : FVec Ideal S1024 .f32) (x6 : FVec Ideal S1x1024 .f32)
    (x7 : FVec Ideal S1 .f32) (b : Fin 32) (h : Fin 1024) :
    val_main_v28 (F := Ideal) x0 x1 x2 x3 x4 x5 x6 x7 (ix3 b (0 : Fin 1) h)
      = rC (rsc x0 x1 x2 x3 x4 x5 x6 x7 b) (fun s => x1 (ix3 b s h)) := by
  rw [val_main_v28_apply]
  unfold rC
  refine Finset.sum_congr rfl fun k _ => ?_
  rw [lidx28, ridx28, v27_apply]

end Cert.ReferenceIdeal.RefRead

end
-- ==== Proof.Finite.lean ====
/-
  What the precondition gives: the three arguments whose entries the joining law needs to be real numbers.

  The precondition says of each of the eight arguments that every entry `x` has `|x| < +∞`, all eight conjoined.  An extended
  real with `|x| < +∞` is a real number.  Only the keys, the score weights and the score bias are needed: a score is a sum of
  products of a tanh (always a real number, at the infinities too) with a score weight, plus the bias.
-/
import proofs.«416888_j54065048322491_3_alg».proof.Proof.Gen.Pre_finite_inputs
import Idealize.ShloMosaic.Lib.ValueIdx
import Idealize.ShloMosaic.Lib.ReduceAll
import Idealize.ShloMosaic.PureOps.Ideal.Laws

noncomputable section

namespace Cert.Pre_finite_inputs.Finite

open Cert.Pre_finite_inputs Idealize.ShloMosaic Idealize.ShloMosaic.ValueIdx

/-- The word of `+∞` is the extended real `⊤`. -/
theorem ofBits_inf : Ideal.ofBits .f32 0x7F800000#32 = (⊤ : EReal) := by simp [Ideal.ofBits, Ideal.ieee]

/-- An extended real whose absolute value is strictly below `+∞` is a real number: at `⊥` and at `⊤` the absolute value is `⊤`. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The scalar shape has one index. -/
instance subsingleton_S_ : Subsingleton S_.Idx := ⟨fun a b => funext fun d => d.elim0⟩

/-- One argument's conjunct: when the `and` over every entry of `|a| < +∞` is 1, every entry of `a` is a real number. -/
theorem real_of_all {s : Shape} {axes : List (Fin s.rank)} (a : FVec Ideal s .f32) (hb : S_.BroadcastsInDim s (![] : Fin 0 → Fin s.rank))
    (hr : s.ReducesTo axes S_) (hu : 0 < S_.numel) (init : IVec S_ 1)
    (e : Host.reduce IntOp.andi (cmpf .olt (Host.absf a) (broadcastInDim s ![] hb (constant (F := Ideal) S_ .f32 0x7F800000#32))) init hr hu ix0 = 1#1)
    (i : s.Idx) : ∃ r : ℝ, a i = (r : EReal) := by
  have e1 := Host.reduce_andi_all _ init hr hu ix0 e i
  rw [cmpf_apply] at e1
  have e2 : broadcastInDim s ![] hb (constant (F := Ideal) S_ .f32 0x7F800000#32) i = (⊤ : EReal) := by
    unfold broadcastInDim
    exact ofBits_inf
  rw [e2] at e1
  exact real_of_abs_lt_top (a i) e1

/-- Under the precondition every entry of the keys (`a1`), of the score weights (`a6`) and of the score bias (`a7`) is a real number. -/
theorem real_of_pre (a0 : FVec Ideal S32x1x1024 .f32) (a1 : FVec Ideal S32x2048x1024 .f32) (a2 : FVec Ideal S1024x1024 .f32)
    (a3 : FVec Ideal S1024 .f32) (a4 : FVec Ideal S1024x1024 .f32) (a5 : FVec Ideal S1024 .f32) (a6 : FVec Ideal S1x1024 .f32)
    (a7 : FVec Ideal S1 .f32)
    (h : Cert.Pre_finite_inputs.fn (F := Ideal) a0 a1 a2 a3 a4 a5 a6 a7 = fun _ => 1#1) :
    (∀ i, ∃ r : ℝ, a1 i = (r : EReal)) ∧ (∀ i, ∃ r : ℝ, a6 i = (r : EReal)) ∧ (∀ i, ∃ r : ℝ, a7 i = (r : EReal)) := by
  have h0 := congrFun h ix0
  dsimp only [fn, fn_part1, fn_part2] at h0
  obtain ⟨h6', h7⟩ := IntOp.andi_eq_one.1 (show IntOp.andi _ _ = 1#1 from h0)
  obtain ⟨h5', h6⟩ := IntOp.andi_eq_one.1 (show IntOp.andi _ _ = 1#1 from h6')
  obtain ⟨h4', h5⟩ := IntOp.andi_eq_one.1 (show IntOp.andi _ _ = 1#1 from h5')
  obtain ⟨h3', h4⟩ := IntOp.andi_eq_one.1 (show IntOp.andi _ _ = 1#1 from h4')
  obtain ⟨h2', h3⟩ := IntOp.andi_eq_one.1 (show IntOp.andi _ _ = 1#1 from h3')
  obtain ⟨h1', h2⟩ := IntOp.andi_eq_one.1 (show IntOp.andi _ _ = 1#1 from h2')
  obtain ⟨h0', h1⟩ := IntOp.andi_eq_one.1 (show IntOp.andi _ _ = 1#1 from h1')
  exact ⟨real_of_all a1 _ _ _ _ h1, real_of_all a6 _ _ _ _ h6, real_of_all a7 _ _ _ _ h7⟩

end Cert.Pre_finite_inputs.Finite

end
-- ==== Proof.Bridge.lean ====
/-
  The two sides meet.

  On the kernel's side a batch row's scores are `gsc` of the arrays the region finds (the query projection, the keys, the
  transposed key weights, the bias rows); on the reference's side they are `rsc` of the eight arguments.  The host
  operations before the region compute exactly the reference's query projection and transposed weights, so the two score
  functions are one, term by term: no law of arithmetic is used.  A score is a finite sum of products of a `tanh` — a real
  number wherever it is taken — with a score weight, plus the score bias: it is real as soon as the score weights and the
  bias are.  With real scores and real keys the online softmax is the softmax (Softmax.lean), which joins the kernel's
  result arrays to the reference's.
-/
import proofs.«416888_j54065048322491_3_alg».proof.Proof.KernelArray
import proofs.«416888_j54065048322491_3_alg».proof.Proof.HostPrefix
import proofs.«416888_j54065048322491_3_alg».proof.Proof.RefRead
import proofs.«416888_j54065048322491_3_alg».proof.Proof.Finite
import proofs.«416888_j54065048322491_3_alg».proof.Proof.Softmax

noncomputable section

namespace Cert.Bridge

open Idealize.ShloMosaic Idealize.ShloMosaic.TcCoe Idealize.ShloMosaic.ValueIdx Idealize.SL.Sem Cert.Attn

/-- `tanh` of an extended real is a real number (`−1` and `1` at the infinities). -/
theorem tanh_real (x : EReal) : ∃ r : ℝ, Ideal.tanh x = (r : EReal) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, rfl⟩

/-- A finite sum of real numbers, taken in the extended reals, is a real number. -/
theorem sum_real {ι : Type} (s : Finset ι) (f : ι → EReal) (h : ∀ i, ∃ r : ℝ, f i = (r : EReal)) :
    ∃ r : ℝ, ∑ i ∈ s, f i = (r : EReal) := by
  classical
  choose g hg using h
  refine ⟨∑ i ∈ s, g i, ?_⟩
  induction s using Finset.induction_on with
  | empty => simp
  | insert a s ha ih => rw [Finset.sum_insert ha, Finset.sum_insert ha, ih, hg a, EReal.coe_add]

/-- A score is real when the score weights and the score bias are. -/
theorem rsc_real (a0 : Cert.ReferenceIdeal.S32x1x1024.Idx → EReal) (a1 : Cert.ReferenceIdeal.S32x2048x1024.Idx → EReal)
    (a2 : Cert.ReferenceIdeal.S1024x1024.Idx → EReal) (a3 : Cert.ReferenceIdeal.S1024.Idx → EReal)
    (a4 : Cert.ReferenceIdeal.S1024x1024.Idx → EReal) (a5 : Cert.ReferenceIdeal.S1024.Idx → EReal)
    (a6 : Cert.ReferenceIdeal.S1x1024.Idx → EReal) (a7 : Cert.ReferenceIdeal.S1.Idx → EReal)
    (h6 : ∀ i, ∃ r : ℝ, a6 i = (r : EReal)) (h7 : ∀ i, ∃ r : ℝ, a7 i = (r : EReal)) (b : Fin 32) (s : Fin 2048) :
    ∃ r : ℝ, Cert.ReferenceIdeal.RefRead.rsc a0 a1 a2 a3 a4 a5 a6 a7 b s = (r : EReal) := by
  unfold Cert.ReferenceIdeal.RefRead.rsc
  obtain ⟨r1, h1⟩ := sum_real Finset.univ
    (fun o : Fin 1024 => Ideal.tanh (((∑ h : Fin 1024, a0 (ix3 b (0 : Fin 1) h) * a2 (ix2 o h)) + a3 (ix1 o))
      + ((∑ h : Fin 1024, a1 (ix3 b s h) * a4 (ix2 o h)) + a5 (ix1 o))) * a6 (ix2 (0 : Fin 1) o))
    (fun o => by
      obtain ⟨t, ht⟩ := tanh_real (((∑ h : Fin 1024, a0 (ix3 b (0 : Fin 1) h) * a2 (ix2 o h)) + a3 (ix1 o))
        + ((∑ h : Fin 1024, a1 (ix3 b s h) * a4 (ix2 o h)) + a5 (ix1 o)))
      obtain ⟨v, hv⟩ := h6 (ix2 (0 : Fin 1) o)
      exact ⟨t * v, by rw [ht, hv, EReal.coe_mul]⟩)
  obtain ⟨r2, h2⟩ := h7 (ix1 (0 : Fin 1))
  exact ⟨r1 + r2, by rw [EReal.coe_add, ← h1, ← h2]⟩

/-- The kernel's scores are the reference's, once the arrays the region finds are read back to the arguments. -/
theorem gsc_eq_rsc (A10 : Cert.KernelIdeal.S32x1x1024.Idx → EReal) (A1 : Cert.KernelIdeal.S32x2048x1024.Idx → EReal)
    (Au : Cert.KernelIdeal.S1024x1024.Idx → EReal) (Aub Ava : Cert.KernelIdeal.S1x1024.Idx → EReal)
    (Avb : Cert.KernelIdeal.S1x1.Idx → EReal)
    (a0 : Cert.ReferenceIdeal.S32x1x1024.Idx → EReal) (a1 : Cert.ReferenceIdeal.S32x2048x1024.Idx → EReal)
    (a2 : Cert.ReferenceIdeal.S1024x1024.Idx → EReal) (a3 : Cert.ReferenceIdeal.S1024.Idx → EReal)
    (a4 : Cert.ReferenceIdeal.S1024x1024.Idx → EReal) (a5 : Cert.ReferenceIdeal.S1024.Idx → EReal)
    (a6 : Cert.ReferenceIdeal.S1x1024.Idx → EReal) (a7 : Cert.ReferenceIdeal.S1.Idx → EReal)
    (h10 : ∀ (b : Fin 32) (o : Fin 1024), A10 (ix3 b (0 : Fin 1) o)
      = (∑ h : Fin 1024, a0 (ix3 b (0 : Fin 1) h) * a2 (ix2 o h)) + a3 (ix1 o))
    (h1 : A1 = a1) (hu : ∀ h o : Fin 1024, Au (ix2 h o) = a4 (ix2 o h))
    (hub : ∀ o : Fin 1024, Aub (ix2 (0 : Fin 1) o) = a5 (ix1 o)) (hva : Ava = a6)
    (hvb : Avb (ix2 (0 : Fin 1) (0 : Fin 1)) = a7 (ix1 (0 : Fin 1))) (b : Fin 32) :
    Cert.KernelIdeal.Arr.gsc A10 A1 Au Aub Ava Avb b = Cert.ReferenceIdeal.RefRead.rsc a0 a1 a2 a3 a4 a5 a6 a7 b := by
  subst h1 hva
  funext s
  unfold Cert.KernelIdeal.Arr.gsc Cert.ReferenceIdeal.RefRead.rsc
  simp only [h10, hu, hub, hvb]

/-! ## The result arrays -/

section Arrays

open Cert.KernelIdeal Cert.KernelIdeal.Gen

variable (m : (ℓ : Loc Cert.KernelIdeal.nD Cert.KernelIdeal.τ Cert.KernelIdeal.sig) → Buf (Elt Ideal) ℓ)

/-- The kernel's scores of batch row `b`, from the arrays the region finds, are the reference's of the arguments. -/
theorem gsc_V (c : Dev Cert.KernelIdeal.nD) (b : Fin 32) :
    Arr.gsc (V m c main_v10) (V m c main_arg1) (V m c main_v1) (V m c main_v2) (V m c main_arg6) (V m c main_v3) b
      = Cert.ReferenceIdeal.RefRead.rsc (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) b :=
  gsc_eq_rsc _ _ _ _ _ _ _ _ _ _ _ _ _ _ (fun b o => HostPre.V_v10_apply m c b o) (V_main_arg1 m c)
    (fun h o => HostPre.V_v1_apply m c h o) (fun o => HostPre.V_v2_apply m c o) (V_main_arg6 m c) (HostPre.V_v3_apply m c) b

/-- Under the precondition the kernel's weights array is the reference's weights stage of the same arguments. -/
theorem weights_eq (c : Dev Cert.KernelIdeal.nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) :
    Cert.ReferenceIdeal.Read.val_main_v27 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      = Arr.G7 (V m c main_v10) (V m c main_arg1) (V m c main_v1) (V m c main_v2) (V m c main_arg6) (V m c main_v3) := by
  obtain ⟨_, h6, h7⟩ := Cert.Pre_finite_inputs.Finite.real_of_pre _ _ _ _ _ _ _ _ hpre
  funext i
  obtain ⟨b, u, s, rfl⟩ : ∃ (b : Fin 32) (u : Fin 1) (s : Fin 2048), i = ix3 b u s := ⟨i 0, i 1, i 2, eq_ix3 i⟩
  obtain rfl : u = 0 := Subsingleton.elim _ _
  refine (Cert.ReferenceIdeal.RefRead.v27_apply _ _ _ _ _ _ _ _ b s).trans ?_
  show _ = kW (Arr.gsc (V m c main_v10) (V m c main_arg1) (V m c main_v1) (V m c main_v2) (V m c main_arg6) (V m c main_v3) b) s
  rw [gsc_V m c b]
  exact (kW_eq_rW _ (fun s => rsc_real _ _ _ _ _ _ _ _ h6 h7 b s) s).symm

/-- Under the precondition the kernel's context array is the reference's context stage of the same arguments. -/
theorem context_eq (c : Dev Cert.KernelIdeal.nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = fun _ => 1#1) :
    Cert.ReferenceIdeal.Read.val_main_v28 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      = Arr.G6 (V m c main_v10) (V m c main_arg1) (V m c main_v1) (V m c main_v2) (V m c main_arg6) (V m c main_v3) := by
  obtain ⟨h1, h6, h7⟩ := Cert.Pre_finite_inputs.Finite.real_of_pre _ _ _ _ _ _ _ _ hpre
  funext i
  obtain ⟨b, u, h, rfl⟩ : ∃ (b : Fin 32) (u : Fin 1) (h : Fin 1024), i = ix3 b u h := ⟨i 0, i 1, i 2, eq_ix3 i⟩
  obtain rfl : u = 0 := Subsingleton.elim _ _
  refine (Cert.ReferenceIdeal.RefRead.v28_apply _ _ _ _ _ _ _ _ b h).trans ?_
  show _ = kC (Arr.gsc (V m c main_v10) (V m c main_arg1) (V m c main_v1) (V m c main_v2) (V m c main_arg6) (V m c main_v3) b)
    (fun s => V m c main_arg1 (ix3 b s h))
  rw [gsc_V m c b, V_main_arg1 m c]
  exact (kC_eq_rC _ _ (fun s => rsc_real _ _ _ _ _ _ _ _ h6 h7 b s) (fun s => h1 _)).symm

end Arrays

end Cert.Bridge

end
-- ==== Proof.lean ====
/-
  The certificate of an additive (Bahdanau) attention kernel against its jnp reference, over the extended reals.

  Per batch row the kernel scores each of the 2048 key rows, `score(s) = ∑ₒ tanh(qₒ + (∑ₕ keys(s,h)·Ua(o,h) + Ua_b(o)))·Va(o) + Va_b`
  with `q` the query's projection (computed on the host before the launch), and returns the softmax weights of the row and
  the weights' contraction with the keys.  It walks the row in four chunks of 512 with a running maximum, denominator and
  numerator (an online softmax); the reference takes the softmax of the whole row and then an einsum.

  The frames of the two kernel programs are generated.  The reference has no kernel: its frame is its generated run with
  the results dropped.  The ideal pass rewrote nothing, so `preserves` asks nothing.  For `algebraic` both runs are stated
  with the same pair of result arrays, the kernel's whole-array functions `G6` (context) and `G7` (weights) of the arrays
  its region finds: the kernel's run ends there block by block (KernelArray.lean over KernelBlock.lean and Ops.lean), and
  the reference's results are those arrays because the scores of the two programs are one function (Bridge.lean over
  HostPrefix.lean and RefRead.lean) and, the score weights, the score bias and the keys being real under the precondition
  (Finite.lean), the online softmax is the softmax (Softmax.lean).
-/
import proofs.«416888_j54065048322491_3_alg».proof.Defs
import proofs.«416888_j54065048322491_3_alg».proof.Proof.Gen.Kernel
import proofs.«416888_j54065048322491_3_alg».proof.Proof.Gen.Kernel.Skeleton
import proofs.«416888_j54065048322491_3_alg».proof.Proof.Gen.Kernel.Launch
import proofs.«416888_j54065048322491_3_alg».proof.Proof.Gen.Kernel.Points
import proofs.«416888_j54065048322491_3_alg».proof.Proof.Gen.Kernel.Frame
import proofs.«416888_j54065048322491_3_alg».proof.Proof.Gen.KernelIdeal
import proofs.«416888_j54065048322491_3_alg».proof.Proof.Gen.KernelIdeal.Skeleton
import proofs.«416888_j54065048322491_3_alg».proof.Proof.Gen.KernelIdeal.Launch
import proofs.«416888_j54065048322491_3_alg».proof.Proof.Gen.KernelIdeal.Points
import proofs.«416888_j54065048322491_3_alg».proof.Proof.Gen.KernelIdeal.Frame
import proofs.«416888_j54065048322491_3_alg».proof.Proof.Gen.ReferenceIdeal
import proofs.«416888_j54065048322491_3_alg».proof.Proof.ValueBlocks
import proofs.«416888_j54065048322491_3_alg».proof.Proof.Gen.ReferenceIdeal.Run
import proofs.«416888_j54065048322491_3_alg».proof.Proof.Gen.ReferenceIdeal.Read
import proofs.«416888_j54065048322491_3_alg».proof.Proof.Gen.Pre_finite_inputs
import proofs.«416888_j54065048322491_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the context array at `G6` and the weights array at `G7` of what the kernel's region finds. -/
theorem algebraic : Cert.algebraic_KernelIdeal_ReferenceIdeal := by
  intro m ρ m' ρ' hpre hagree
  refine ⟨fun c => Cert.KernelIdeal.Arr.G6 (Cert.KernelIdeal.Gen.V m c Cert.KernelIdeal.main_v10) (Cert.KernelIdeal.Gen.V m c Cert.KernelIdeal.main_arg1)
      (Cert.KernelIdeal.Gen.V m c Cert.KernelIdeal.main_v1) (Cert.KernelIdeal.Gen.V m c Cert.KernelIdeal.main_v2)
      (Cert.KernelIdeal.Gen.V m c Cert.KernelIdeal.main_arg6) (Cert.KernelIdeal.Gen.V m c Cert.KernelIdeal.main_v3),
    fun c => Cert.KernelIdeal.Arr.G7 (Cert.KernelIdeal.Gen.V m c Cert.KernelIdeal.main_v10) (Cert.KernelIdeal.Gen.V m c Cert.KernelIdeal.main_arg1)
      (Cert.KernelIdeal.Gen.V m c Cert.KernelIdeal.main_v1) (Cert.KernelIdeal.Gen.V m c Cert.KernelIdeal.main_v2)
      (Cert.KernelIdeal.Gen.V m c Cert.KernelIdeal.main_arg6) (Cert.KernelIdeal.Gen.V m c Cert.KernelIdeal.main_v3), ?_, ?_⟩
  · exact (θ_run Cert.KernelIdeal.defs _ _).mono
      (fun r h c => ⟨(h c).1.trans (Cert.KernelIdeal.Arr.final6 m c), (h c).2.1.trans (Cert.KernelIdeal.Arr.final7 m c), (h c).2.2⟩)
      (Cert.KernelIdeal.ValueP.run_blocks (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v28_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
      exact Cert.Bridge.context_eq m c (hpre c)
    · rw [Cert.ReferenceIdeal.Read.val_main_v27_eq, (hagree c).1, (hagree c).2.1, (hagree c).2.2.1, (hagree c).2.2.2.1,
        (hagree c).2.2.2.2.1, (hagree c).2.2.2.2.2.1, (hagree c).2.2.2.2.2.2.1, (hagree c).2.2.2.2.2.2.2]
      exact Cert.Bridge.weights_eq m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
